-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39 : Shape := ⟨2, ![16384, 39]⟩
abbrev S1950000x16 : Shape := ⟨2, ![1950000, 16]⟩
abbrev S1950000x1 : Shape := ⟨2, ![1950000, 1]⟩
abbrev S1 : Shape := ⟨1, ![1]⟩
abbrev S624x16 : Shape := ⟨2, ![624, 16]⟩
abbrev S16 : Shape := ⟨1, ![16]⟩
abbrev S16x16 : Shape := ⟨2, ![16, 16]⟩
abbrev S16x1 : Shape := ⟨2, ![16, 1]⟩
abbrev S_ : Shape := ⟨0, ![]⟩

class Facts : Prop where
  bcast_S_S1950000x16 : S_.BroadcastsInDim S1950000x16 (![] : Fin 0 → Fin S1950000x16.rank)
  reducesTo_S1950000x16_S_d0_1 : S1950000x16.ReducesTo [0, 1] S_
  h_S_ : 0 < S_.numel
  bcast_S_S1950000x1 : S_.BroadcastsInDim S1950000x1 (![] : Fin 0 → Fin S1950000x1.rank)
  reducesTo_S1950000x1_S_d0_1 : S1950000x1.ReducesTo [0, 1] S_
  bcast_S_S1 : S_.BroadcastsInDim S1 (![] : Fin 0 → Fin S1.rank)
  reducesTo_S1_S_d0 : S1.ReducesTo [0] S_
  bcast_S_S624x16 : S_.BroadcastsInDim S624x16 (![] : Fin 0 → Fin S624x16.rank)
  reducesTo_S624x16_S_d0_1 : S624x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_

variable [Facts]

def fn_part3 {F : FTy → Type} [FloatOps F] (main_arg12 : FVec F S16x1 .f32) (main_arg13 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x1 .f32 := Host.absf main_arg12
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S16x16 .f32) (main_arg9 : FVec F S16 .f32) (main_arg10 : FVec F S16 .f32) (main_arg11 : FVec F S16 .f32) (main_arg12 : FVec F S16x1 .f32) (main_arg13 : FVec F S1 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S16 .f32) (main_arg6 : FVec F S16 .f32) (main_arg7 : FVec F S16 .f32) (main_arg8 : FVec F S16x16 .f32) (main_arg9 : FVec F S16 .f32) (main_arg10 : FVec F S16 .f32) (main_arg11 : FVec F S16 .f32) (main_arg12 : FVec F S16x1 .f32) (main_arg13 : FVec F S1 .f32) (main_v13 : IVec S_ 1) (main_v16 : IVec S624x16 1) : IVec S_ 1 :=
  let main_c_5 : IVec S_ 1 := constantI S_ 1 1#1
  let main_v17 : IVec S_ 1 := (fun x v => Host.reduce IntOp.andi x v reducesTo_S624x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S16384x39 32) (main_arg1 : FVec F S1950000x16 .f32) (main_arg2 : FVec F S1950000x1 .f32) (main_arg3 : FVec F S1 .f32) (main_arg4 : FVec F S624x16 .f32) (main_arg5 : FVec F S16 .f32) (main_arg6 : FVec F S16 .f32) (main_arg7 : FVec F S16 .f32) (main_arg8 : FVec F S16x16 .f32) (main_arg9 : FVec F S16 .f32) (main_arg10 : FVec F S16 .f32) (main_arg11 : FVec F S16 .f32) (main_arg12 : FVec F S16x1 .f32) (main_arg13 : FVec F S1 .f32) : IVec S_ 1 :=
  let main_v0 : FVec F S1950000x16 .f32 := Host.absf main_arg1
  let main_cst : FVec F S_ .f32 := constant S_ .f32 0x7F800000#32
  let main_v1 : FVec F S1950000x16 .f32 := broadcastInDim S1950000x16 ![] bcast_S_S1950000x16 main_cst
  let main_v2 : IVec S1950000x16 1 := cmpf .olt main_v0 main_v1
  let main_c : IVec S_ 1 := constantI S_ 1 1#1
  let main_v3 : IVec S_ 1 := (fun x v => Host.reduce IntOp.andi x v reducesTo_S1950000x16_S_d0_1 h_S_) main_v2 main_c
  let main_v4 : FVec F S1950000x1 .f32 := Host.absf main_arg2
  let main_cst_0 : FVec F S_ .f32 := constant S_ .f32 0x7F800000#32
  let main_v5 : FVec F S1950000x1 .f32 := broadcastInDim S1950000x1 ![] bcast_S_S1950000x1 main_cst_0
  let main_v6 : IVec S1950000x1 1 := cmpf .olt main_v4 main_v5
  let main_c_1 : IVec S_ 1 := constantI S_ 1 1#1
  let main_v7 : IVec S_ 1 := (fun x v => Host.reduce IntOp.andi x v reducesTo_S1950000x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S624x16 .f32 := Host.absf main_arg4
  let main_cst_4 : FVec F S_ .f32 := constant S_ .f32 0x7F800000#32
  let main_v15 : FVec F S624x16 .f32 := broadcastInDim S624x16 ![] bcast_S_S624x16 main_cst_4
  let main_v16 : IVec S624x16 1 := cmpf .olt main_v14 main_v15
  fn_part1 (F := F) main_arg5 main_arg6 main_arg7 main_arg8 main_arg9 main_arg10 main_arg11 main_arg12 main_arg13 main_v13 main_v16
-- ==== Kernel.lean ====
abbrev S16384x39 : Shape := ⟨2, ![16384, 39]⟩
abbrev S1950000x16 : Shape := ⟨2, ![1950000, 16]⟩
abbrev S1950000x1 : Shape := ⟨2, ![1950000, 1]⟩
abbrev S1 : Shape := ⟨1, ![1]⟩
abbrev S624x16 : Shape := ⟨2, ![624, 16]⟩
abbrev S16 : Shape := ⟨1, ![16]⟩
abbrev S16x16 : Shape := ⟨2, ![16, 16]⟩
abbrev S16x1 : Shape := ⟨2, ![16, 1]⟩
abbrev S39 : Shape := ⟨1, ![39]⟩
abbrev S1x39 : Shape := ⟨2, ![1, 39]⟩
abbrev S_ : Shape := ⟨0, ![]⟩
abbrev S16384x39x1 : Shape := ⟨3, ![16384, 39, 1]⟩
abbrev S16384x39x16 : Shape := ⟨3, ![16384, 39, 16]⟩
abbrev S1x16 : Shape := ⟨2, ![1, 16]⟩
abbrev S1x1 : Shape := ⟨2, ![1, 1]⟩
abbrev S16384x1 : Shape := ⟨2, ![16384, 1]⟩
abbrev S2048x39x16 : Shape := ⟨3, ![2048, 39, 16]⟩
abbrev S2048x39 : Shape := ⟨2, ![2048, 39]⟩
abbrev S2048x1 : Shape := ⟨2, ![2048, 1]⟩
abbrev S2048x16 : Shape := ⟨2, ![2048, 16]⟩
abbrev S2048 : Shape := ⟨1, ![2048]⟩
abbrev S2048x624 : Shape := ⟨2, ![2048, 624]⟩
abbrev S16384 : Shape := ⟨1, ![16384]⟩

abbrev nBuf : Space → Nat
  | .hbm => 57
  | .vmem => 17
  | .smem => 0
  | _ => 0

abbrev bufTy : (tb : Table) → Fin (tcTables nBuf tb) → BufTy
  | .hbm, ⟨0, _⟩ => ⟨S16384x39, .i32⟩
  | .hbm, ⟨1, _⟩ => ⟨S1950000x16, .f32⟩
  | .hbm, ⟨2, _⟩ => ⟨S1950000x1, .f32⟩
  | .hbm, ⟨3, _⟩ => ⟨S1, .f32⟩
  | .hbm, ⟨4, _⟩ => ⟨S624x16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S39, .i32⟩
  | .hbm, ⟨15, _⟩ => ⟨S1x39, .i32⟩
  | .hbm, ⟨16, _⟩ => ⟨S16384x39, .i32⟩
  | .hbm, ⟨17, _⟩ => ⟨S16384x39, .i32⟩
  | .hbm, ⟨18, _⟩ => ⟨S_, .i32⟩
  | .hbm, ⟨19, _⟩ => ⟨S16384x39, .i32⟩
  | .hbm, ⟨20, _⟩ => ⟨S16384x39, .i1⟩
  | .hbm, ⟨21, _⟩ => ⟨S_, .i32⟩
  | .hbm, ⟨22, _⟩ => ⟨S16384x39, .i32⟩
  | .hbm, ⟨23, _⟩ => ⟨S16384x39, .i32⟩
  | .hbm, ⟨24, _⟩ => ⟨S16384x39, .i32⟩
  | .hbm, ⟨25, _⟩ => ⟨S16384x39x1, .i32⟩
  | .hbm, ⟨26, _⟩ => ⟨S16384x39x16, .f32⟩
  | .hbm, ⟨27, _⟩ => ⟨S_, .i32⟩
  | .hbm, ⟨28, _⟩ => ⟨S16384x39, .i32⟩
  | .hbm, ⟨29, _⟩ => ⟨S16384x39, .i1⟩
  | .hbm, ⟨30, _⟩ => ⟨S_, .i32⟩
  | .hbm, ⟨31, _⟩ => ⟨S16384x39, .i32⟩
  | .hbm, ⟨32, _⟩ => ⟨S16384x39, .i32⟩
  | .hbm, ⟨33, _⟩ => ⟨S16384x39, .i32⟩
  | .hbm, ⟨34, _⟩ => ⟨S16384x39x1, .i32⟩
  | .hbm, ⟨35, _⟩ => ⟨S16384x39x1, .f32⟩
  | .hbm, ⟨36, _⟩ => ⟨S16384x39, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S1x16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S1x16, .f32⟩
  | .hbm, ⟨49, _⟩ => ⟨S1x16, .f32⟩
  | .hbm, ⟨50, _⟩ => ⟨S1x16, .f32⟩
  | .hbm, ⟨51, _⟩ => ⟨S1x16, .f32⟩
  | .hbm, ⟨52, _⟩ => ⟨S1x16, .f32⟩
  | .hbm, ⟨53, _⟩ => ⟨S1x1, .f32⟩
  | .hbm, ⟨54, _⟩ => ⟨S1x1, .f32⟩
  | .hbm, ⟨55, _⟩ => ⟨S16384x1, .f32⟩
  | .hbm, ⟨56, _⟩ => ⟨S16384, .f32⟩
  | .local _ .vmem, ⟨0, _⟩ => ⟨S2048x39x16, .f32⟩
  | .local _ .vmem, ⟨1, _⟩ => ⟨S2048x39x16, .f32⟩
  | .local _ .vmem, ⟨2, _⟩ => ⟨S2048x39, .f32⟩
  | .local _ .vmem, ⟨3, _⟩ => ⟨S2048x39, .f32⟩
  | .local _ .vmem, ⟨4, _⟩ => ⟨S624x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S16x1, .f32⟩
  | .local _ .vmem, ⟨13, _⟩ => ⟨S1x1, .f32⟩
  | .local _ .vmem, ⟨14, _⟩ => ⟨S1x1, .f32⟩
  | .local _ .vmem, ⟨15, _⟩ => ⟨S2048x1, .f32⟩
  | .local _ .vmem, ⟨16, _⟩ => ⟨S2048x1, .f32⟩
  | _, _ => ⟨S16384x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x39x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x39 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S624x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  shapeCasts_S16384x39x1_S16384x39 : S16384x39x1.ShapeCasts S16384x39
  bcast_S_S16 : S_.BroadcastsInDim S16 (![] : Fin 0 → Fin S16.rank)
  shapeCasts_S16_S1x16 : S16.ShapeCasts S1x16
  shapeCasts_S1_S1x1 : S1.ShapeCasts S1x1
  inb_S2048x39x16_S2048x39x16_0_0_0 : ∀ a, (![0, 0, 0] : Fin 3 → Nat) a + S2048x39x16.size a ≤ S2048x39x16.size a
  h_S2048x39x16 : 0 < S2048x39x16.numel
  shapeCasts_S2048x39x16_S2048x39x16 : S2048x39x16.ShapeCasts S2048x39x16
  inb_S2048x39_S2048x39_0_0 : ∀ a, (![0, 0] : Fin 2 → Nat) a + S2048x39.size a ≤ S2048x39.size a
  h_S2048x39 : 0 < S2048x39.numel
  shapeCasts_S2048x39_S2048x39 : S2048x39.ShapeCasts S2048x39
  reduces_S2048x39x16_S2048x16 : S2048x39x16.Reduces [1] S2048x16
  reduces_S2048x16_S2048 : S2048x16.Reduces [1] S2048
  shapeCasts_S2048_S2048x1 : S2048.ShapeCasts S2048x1
  reduces_S2048x39_S2048 : S2048x39.Reduces [1] S2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S2048x39x16_S2048x624 : S2048x39x16.ShapeCasts S2048x624
  inb_S624x16_S624x16_0_0 : ∀ a, (![0, 0] : Fin 2 → Nat) a + S624x16.size a ≤ S624x16.size a
  h_S624x16 : 0 < S624x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S1950000x16_S16384x39x1_S16384x39x16_2_0_n_n_0_2_116_wf : GatherDims.WF S1950000x16 S16384x39x1 S16384x39x16 [2] [0] [] [0] [] 2 ![1, 16]
  gather_S1950000x1_S16384x39x1_S16384x39x1_2_0_n_n_0_2_11_wf : GatherDims.WF S1950000x1 S16384x39x1 S16384x39x1 [2] [0] [] [0] [] 2 ![1, 1]
  dot_S2048x624_S624x16_S2048x16_1_0_0_1_n_n_wf : DotDims.WF S2048x624 S624x16 S2048x16 [1] [0] [0] [1] [] []
  dot_S2048x16_S16x16_S2048x16_1_0_0_1_n_n_wf : DotDims.WF S2048x16 S16x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x39x16.size a ≤ S16384x39x16.size a
  hwx0_0 : ∀ i : grid0.Coords, EltTy.bits .f32 = 32 ∨ (Rect.block (s := S16384x39x16) S2048x39x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x39.size a ≤ S16384x39.size a
  hwx0_1 : ∀ i : grid0.Coords, EltTy.bits .f32 = 32 ∨ (Rect.block (s := S16384x39) S2048x39.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S624x16.size a ≤ S624x16.size a
  hwx0_2 : ∀ i : grid0.Coords, EltTy.bits .f32 = 32 ∨ (Rect.block (s := S624x16) S624x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S16384x1.size a
  hwx0_13 : ∀ i : grid0.Coords, EltTy.bits .f32 = 32 ∨ (Rect.block (s := S16384x1) S2048x1.size (cc0_transform_13 i) (hinb0_13 i)).WholeWords (EltTy.packing .f32)

variable [Facts₀]

def gather_S1950000x16_S16384x39x1_S16384x39x16_2_0_n_n_0_2_116 : GatherDims S1950000x16 S16384x39x1 S16384x39x16 where
  offsetDims := [2]
  collapsedSliceDims := [0]
  operandBatchingDims := []
  startIndicesBatchingDims := []
  startIndexMap := [0]
  indexVectorDim := 2
  sliceSizes := ![1, 16]
  wf := gather_S1950000x16_S16384x39x1_S16384x39x16_2_0_n_n_0_2_116_wf
def gather_S1950000x1_S16384x39x1_S16384x39x1_2_0_n_n_0_2_11 : GatherDims S1950000x1 S16384x39x1 S16384x39x1 where
  offsetDims := [2]
  collapsedSliceDims := [0]
  operandBatchingDims := []
  startIndicesBatchingDims := []
  startIndexMap := [0]
  indexVectorDim := 2
  sliceSizes := ![1, 1]
  wf := gather_S1950000x1_S16384x39x1_S16384x39x1_2_0_n_n_0_2_11_wf
def dot_S2048x624_S624x16_S2048x16_1_0_0_1_n_n : DotDims S2048x624 S624x16 S2048x16 where
  lhsContracting := [1]
  rhsContracting := [0]
  lhsNonContracting := [0]
  rhsNonContracting := [1]
  lhsBatch := []
  rhsBatch := []
  wf := dot_S2048x624_S624x16_S2048x16_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_v9) S2048x39x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x39.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S624x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x39 : Shape := ⟨2, ![16384, 39]⟩
abbrev S1950000x16 : Shape := ⟨2, ![1950000, 16]⟩
abbrev S1950000x1 : Shape := ⟨2, ![1950000, 1]⟩
abbrev S1 : Shape := ⟨1, ![1]⟩
abbrev S624x16 : Shape := ⟨2, ![624, 16]⟩
abbrev S16 : Shape := ⟨1, ![16]⟩
abbrev S16x16 : Shape := ⟨2, ![16, 16]⟩
abbrev S16x1 : Shape := ⟨2, ![16, 1]⟩
abbrev S39 : Shape := ⟨1, ![39]⟩
abbrev S1x39 : Shape := ⟨2, ![1, 39]⟩
abbrev S_ : Shape := ⟨0, ![]⟩
abbrev S16384x39x1 : Shape := ⟨3, ![16384, 39, 1]⟩
abbrev S16384x39x16 : Shape := ⟨3, ![16384, 39, 16]⟩
abbrev S16384x1 : Shape := ⟨2, ![16384, 1]⟩
abbrev S1x1 : Shape := ⟨2, ![1, 1]⟩
abbrev S16384x16 : Shape := ⟨2, ![16384, 16]⟩
abbrev S16384 : Shape := ⟨1, ![16384]⟩
abbrev S16384x624 : Shape := ⟨2, ![16384, 624]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S16384x39, .i32⟩
  | .hbm, ⟨1, _⟩ => ⟨S1950000x16, .f32⟩
  | .hbm, ⟨2, _⟩ => ⟨S1950000x1, .f32⟩
  | .hbm, ⟨3, _⟩ => ⟨S1, .f32⟩
  | .hbm, ⟨4, _⟩ => ⟨S624x16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S39, .i32⟩
  | .hbm, ⟨15, _⟩ => ⟨S1x39, .i32⟩
  | .hbm, ⟨16, _⟩ => ⟨S16384x39, .i32⟩
  | .hbm, ⟨17, _⟩ => ⟨S16384x39, .i32⟩
  | .hbm, ⟨18, _⟩ => ⟨S_, .i32⟩
  | .hbm, ⟨19, _⟩ => ⟨S16384x39, .i32⟩
  | .hbm, ⟨20, _⟩ => ⟨S16384x39, .i1⟩
  | .hbm, ⟨21, _⟩ => ⟨S_, .i32⟩
  | .hbm, ⟨22, _⟩ => ⟨S16384x39, .i32⟩
  | .hbm, ⟨23, _⟩ => ⟨S16384x39, .i32⟩
  | .hbm, ⟨24, _⟩ => ⟨S16384x39, .i32⟩
  | .hbm, ⟨25, _⟩ => ⟨S16384x39x1, .i32⟩
  | .hbm, ⟨26, _⟩ => ⟨S16384x39x16, .f32⟩
  | .hbm, ⟨27, _⟩ => ⟨S_, .i32⟩
  | .hbm, ⟨28, _⟩ => ⟨S16384x39, .i32⟩
  | .hbm, ⟨29, _⟩ => ⟨S16384x39, .i1⟩
  | .hbm, ⟨30, _⟩ => ⟨S_, .i32⟩
  | .hbm, ⟨31, _⟩ => ⟨S16384x39, .i32⟩
  | .hbm, ⟨32, _⟩ => ⟨S16384x39, .i32⟩
  | .hbm, ⟨33, _⟩ => ⟨S16384x39, .i32⟩
  | .hbm, ⟨34, _⟩ => ⟨S16384x39x1, .i32⟩
  | .hbm, ⟨35, _⟩ => ⟨S16384x39x1, .f32⟩
  | .hbm, ⟨36, _⟩ => ⟨S_, .f32⟩
  | .hbm, ⟨37, _⟩ => ⟨S16384x1, .f32⟩
  | .hbm, ⟨38, _⟩ => ⟨S1x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x16, .f32⟩
  | .hbm, ⟨43, _⟩ => ⟨S16384x16, .f32⟩
  | .hbm, ⟨44, _⟩ => ⟨S16384x39x16, .f32⟩
  | .hbm, ⟨45, _⟩ => ⟨S_, .f32⟩
  | .hbm, ⟨46, _⟩ => ⟨S16384x16, .f32⟩
  | .hbm, ⟨47, _⟩ => ⟨S16384x16, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x624, .f32⟩
  | .hbm, ⟨55, _⟩ => ⟨S16384x16, .f32⟩
  | .hbm, ⟨56, _⟩ => ⟨S1x16, .f32⟩
  | .hbm, ⟨57, _⟩ => ⟨S16384x16, .f32⟩
  | .hbm, ⟨58, _⟩ => ⟨S16384x16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S1x16, .f32⟩
  | .hbm, ⟨65, _⟩ => ⟨S16384x16, .f32⟩
  | .hbm, ⟨66, _⟩ => ⟨S16384x16, .f32⟩
  | .hbm, ⟨67, _⟩ => ⟨S1x16, .f32⟩
  | .hbm, ⟨68, _⟩ => ⟨S16384x16, .f32⟩
  | .hbm, ⟨69, _⟩ => ⟨S16384x16, .f32⟩
  | .hbm, ⟨70, _⟩ => ⟨S_, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S1x16, .f32⟩
  | .hbm, ⟨75, _⟩ => ⟨S16384x16, .f32⟩
  | .hbm, ⟨76, _⟩ => ⟨S16384x16, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16384x16, .f32⟩
  | .hbm, ⟨81, _⟩ => ⟨S16384x16, .f32⟩
  | .hbm, ⟨82, _⟩ => ⟨S1x16, .f32⟩
  | .hbm, ⟨83, _⟩ => ⟨S16384x16, .f32⟩
  | .hbm, ⟨84, _⟩ => ⟨S16384x16, .f32⟩
  | .hbm, ⟨85, _⟩ => ⟨S1x16, .f32⟩
  | .hbm, ⟨86, _⟩ => ⟨S16384x16, .f32⟩
  | .hbm, ⟨87, _⟩ => ⟨S16384x16, .f32⟩
  | .hbm, ⟨88, _⟩ => ⟨S_, .f32⟩
  | .hbm, ⟨89, _⟩ => ⟨S16384x16, .f32⟩
  | .hbm, ⟨90, _⟩ => ⟨S16384x16, .f32⟩
  | .hbm, ⟨91, _⟩ => ⟨S16384x1, .f32⟩
  | .hbm, ⟨92, _⟩ => ⟨S1x1, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384, .f32⟩
  | _, _ => ⟨S16384x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  reducesTo_S16384x39x1_S16384x1_d1 : S16384x39x1.ReducesTo [1] S16384x1
  h_S_ : 0 < S_.numel
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x39x16_S16384x16_d1 : S16384x39x16.ReducesTo [1] S16384x16
  reducesTo_S16384x16_S16384_d1 : S16384x16.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x39x16_S16384x624 : S16384x39x16.ShapeCasts S16384x624
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  shapeCasts_S16384x1_S16384 : S16384x1.ShapeCasts S16384
  gather_S1950000x16_S16384x39x1_S16384x39x16_2_0_n_n_0_2_116_wf : GatherDims.WF S1950000x16 S16384x39x1 S16384x39x16 [2] [0] [] [0] [] 2 ![1, 16]
  gather_S1950000x1_S16384x39x1_S16384x39x1_2_0_n_n_0_2_11_wf : GatherDims.WF S1950000x1 S16384x39x1 S16384x39x1 [2] [0] [] [0] [] 2 ![1, 1]
  dot_S16384x624_S624x16_S16384x16_1_0_0_1_n_n_wf : DotDims.WF S16384x624 S624x16 S16384x16 [1] [0] [0] [1] [] []
  dot_S16384x16_S16x16_S16384x16_1_0_0_1_n_n_wf : DotDims.WF S16384x16 S16x16 S16384x16 [1] [0] [0] [1] [] []
  dot_S16384x16_S16x1_S16384x1_1_0_0_1_n_n_wf : DotDims.WF S16384x16 S16x1 S16384x1 [1] [0] [0] [1] [] []

variable [Facts₀]

def gather_S1950000x16_S16384x39x1_S16384x39x16_2_0_n_n_0_2_116 : GatherDims S1950000x16 S16384x39x1 S16384x39x16 where
  offsetDims := [2]
  collapsedSliceDims := [0]
  operandBatchingDims := []
  startIndicesBatchingDims := []
  startIndexMap := [0]
  indexVectorDim := 2
  sliceSizes := ![1, 16]
  wf := gather_S1950000x16_S16384x39x1_S16384x39x16_2_0_n_n_0_2_116_wf
def gather_S1950000x1_S16384x39x1_S16384x39x1_2_0_n_n_0_2_11 : GatherDims S1950000x1 S16384x39x1 S16384x39x1 where
  offsetDims := [2]
  collapsedSliceDims := [0]
  operandBatchingDims := []
  startIndicesBatchingDims := []
  startIndexMap := [0]
  indexVectorDim := 2
  sliceSizes := ![1, 1]
  wf := gather_S1950000x1_S16384x39x1_S16384x39x1_2_0_n_n_0_2_11_wf
def dot_S16384x624_S624x16_S16384x16_1_0_0_1_n_n : DotDims S16384x624 S624x16 S16384x16 where
  lhsContracting := [1]
  rhsContracting := [0]
  lhsNonContracting := [0]
  rhsNonContracting := [1]
  lhsBatch := []
  rhsBatch := []
  wf := dot_S16384x624_S624x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.Spec.lean ====
/-
  The mathematics both programs compute, stated once over the extended reals and over no program.

  One batch row `r` with its 39 gathered embedding vectors `e f : Fin 16 → EReal` and its 39 gathered linear
  weights `l f` yields one number, the sum of three terms:
    * the linear term   `Σ_f l f + lin_b`;
    * the factorization-machine term   `½ · Σ_d ((Σ_f e f d)² − Σ_f (e f d)²)`;
    * a three-layer perceptron on the 624 flattened entries `e (k / 16) (k % 16)`: two hidden layers of 16
      units, each an affine map, a batch-norm scale in evaluation mode (running mean 0, running variance 1, so a
      division by `√(1 + ε)`), a shift and a rectifier, then an affine map to one number.
  The reference divides each hidden pre-activation by `√(1 + ε)` and then multiplies by `γ`; the kernel is handed
  `γ · (1 / √(1 + ε))` and multiplies the pre-activation by it. `√(1 + ε)` is a nonzero real, so a quotient by it is a
  product with its reciprocal on every extended real, and the two forms agree by commutativity and associativity of
  the product alone: no finiteness of the inputs is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- `1 + ε` as the f32 literal both programs carry (`1.00001` rounded to f32), and its square root. -/
def sqrtC : EReal := Ideal.sqrt (Ideal.ofBits .f32 0x3F800054#32)
/-- The f32 literal `1.0`. -/
def oneC : EReal := Ideal.ofBits .f32 0x3F800000#32
/-- The f32 literal `0.5`. -/
def halfC : EReal := Ideal.ofBits .f32 0x3F000000#32

/-- The factorization-machine term of one row. -/
def fm (e : Fin 39 → Fin 16 → EReal) : EReal :=
  halfC * ∑ d : Fin 16, ((∑ f : Fin 39, e f d) * (∑ f : Fin 39, e f d) - ∑ f : Fin 39, e f d * e f d)

/-- The linear term of one row. -/
def lin (l : Fin 39 → EReal) (lb : EReal) : EReal := (∑ f : Fin 39, l f) + lb

/-- The row's 39 × 16 embedding entries flattened row-major to 624. -/
def flat (e : Fin 39 → Fin 16 → EReal) (k : Fin 624) : EReal :=
  e ⟨k.val / 16, by have := k.isLt; omega⟩ ⟨k.val % 16, Nat.mod_lt _ (by decide)⟩

/-- First hidden layer before scale, shift and rectifier. -/
def pre1 (e : Fin 39 → Fin 16 → EReal) (W1 : Fin 624 → Fin 16 → EReal) (b1 : Fin 16 → EReal) (j : Fin 16) : EReal :=
  (∑ k : Fin 624, flat e k * W1 k j) + b1 j

/-- Second hidden layer before scale, shift and rectifier. -/
def pre2 (h1 : Fin 16 → EReal) (W2 : Fin 16 → Fin 16 → EReal) (b2 : Fin 16 → EReal) (j : Fin 16) : EReal :=
  (∑ k : Fin 16, h1 k * W2 k j) + b2 j

/-- The output layer. -/
def mlp (h2 : Fin 16 → EReal) (W3 : Fin 16 → EReal) (b3 : EReal) : EReal := (∑ k : Fin 16, h2 k * W3 k) + b3

/-- Scale, shift, rectify as the reference does: `max (γ · (h / √(1+ε)) + β) 0`. -/
def actR (g h be : EReal) : EReal := max (g * Ideal.div h sqrtC + be) 0

/-- Scale, shift, rectify as the kernel does, the scale `γs` handed in: `max (γs · h + β) 0`. -/
def actK (gs h be : EReal) : EReal := max (gs * h + be) 0

/-- One row's result in the reference's form. -/
def rowR (e : Fin 39 → Fin 16 → EReal) (l : Fin 39 → EReal) (lb : EReal)
    (W1 : Fin 624 → Fin 16 → EReal) (b1 g1 be1 : Fin 16 → EReal)
    (W2 : Fin 16 → Fin 16 → EReal) (b2 g2 be2 : Fin 16 → EReal) (W3 : Fin 16 → EReal) (b3 : EReal) : EReal :=
  (lin l lb + fm e)
    + mlp (fun j => actR (g2 j) (pre2 (fun i => actR (g1 i) (pre1 e W1 b1 i) (be1 i)) W2 b2 j) (be2 j)) W3 b3

/-- One row's result in the kernel's form, the two scales handed in. -/
def rowK (e : Fin 39 → Fin 16 → EReal) (l : Fin 39 → EReal) (lb : EReal)
    (W1 : Fin 624 → Fin 16 → EReal) (b1 gs1 be1 : Fin 16 → EReal)
    (W2 : Fin 16 → Fin 16 → EReal) (b2 gs2 be2 : Fin 16 → EReal) (W3 : Fin 16 → EReal) (b3 : EReal) : EReal :=
  (lin l lb + fm e)
    + mlp (fun j => actK (gs2 j) (pre2 (fun i => actK (gs1 i) (pre1 e W1 b1 i) (be1 i)) W2 b2 j) (be2 j)) W3 b3

/-- `√(1+ε)` is a nonzero real. -/
theorem sqrtC_coe : ∃ y : ℝ, y ≠ 0 ∧ sqrtC = (y : EReal) := by
  have hc : Ideal.ofBits .f32 0x3F800054#32 = ((8388692 / 8388608 : ℝ) : EReal) := by
    simp [Ideal.ofBits, Ideal.ieee, -EReal.coe_mul]; norm_num
  refine ⟨Real.sqrt (8388692 / 8388608), ?_, ?_⟩
  · exact (Real.sqrt_pos.mpr (by norm_num)).ne'
  · unfold sqrtC; rw [hc, Ideal.sqrt_coe, if_neg (by norm_num)]

/-- The literal `1.0` is the real one. -/
theorem oneC_eq : oneC = 1 := by
  unfold oneC
  have : Ideal.ofBits .f32 0x3F800000#32 = ((1 : ℝ) : EReal) := by
    simp [Ideal.ofBits, Ideal.ieee, -EReal.coe_mul]; norm_num
  rw [this]; rfl

/-- THE LAW: scaling by `γ · (1 / √(1+ε))` is `γ` times the quotient by `√(1+ε)`. -/
theorem scale_law (g h : EReal) : (g * Ideal.div oneC sqrtC) * h = g * Ideal.div h sqrtC := by
  obtain ⟨y, hy, e⟩ := sqrtC_coe
  rw [e, Ideal.div_coe hy, Ideal.div_coe hy, oneC_eq, one_mul, mul_assoc, mul_comm (((1 / y : ℝ) : EReal)) h]

theorem actK_eq_actR (g h be : EReal) : actK (g * Ideal.div oneC sqrtC) h be = actR g h be := by
  unfold actK actR; rw [scale_law]

/-- The kernel's row, handed the reference's `γ`s pre-scaled, is the reference's row. -/
theorem rowK_eq_rowR (e : Fin 39 → Fin 16 → EReal) (l : Fin 39 → EReal) (lb : EReal)
    (W1 : Fin 624 → Fin 16 → EReal) (b1 g1 be1 : Fin 16 → EReal)
    (W2 : Fin 16 → Fin 16 → EReal) (b2 g2 be2 : Fin 16 → EReal) (W3 : Fin 16 → EReal) (b3 : EReal) :
    rowK e l lb W1 b1 (fun j => g1 j * Ideal.div oneC sqrtC) be1 W2 b2 (fun j => g2 j * Ideal.div oneC sqrtC) be2 W3 b3
      = rowR e l lb W1 b1 g1 be1 W2 b2 g2 be2 W3 b3 := by
  unfold rowK rowR
  simp only [actK_eq_actR]

/-! ## The whole result array -/

abbrev SE : Shape := ⟨3, ![16384, 39, 16]⟩
abbrev SL3 : Shape := ⟨3, ![16384, 39, 1]⟩
abbrev SOut : Shape := ⟨1, ![16384]⟩
abbrev SW1 : Shape := ⟨2, ![624, 16]⟩
abbrev SW2 : Shape := ⟨2, ![16, 16]⟩
abbrev SW3 : Shape := ⟨2, ![16, 1]⟩
abbrev SV16 : Shape := ⟨1, ![16]⟩
abbrev SV1 : Shape := ⟨1, ![1]⟩

/-- The result array as ONE function of the gathered embeddings `E`, the gathered linear weights `L3` and the
    eleven parameter arrays, index by index: entry `r` is row `r`'s number. -/
def G (E : SE.Idx → EReal) (L3 : SL3.Idx → EReal) (lb : SV1.Idx → EReal)
    (W1 : SW1.Idx → EReal) (b1 g1 be1 : SV16.Idx → EReal)
    (W2 : SW2.Idx → EReal) (b2 g2 be2 : SV16.Idx → EReal) (W3 : SW3.Idx → EReal) (b3 : SV1.Idx → EReal) :
    SOut.Idx → EReal := fun i =>
  rowR (fun f d => E (ix3 (i 0) f d)) (fun f => L3 (ix3 (i 0) f 0)) (lb (ix1 0))
    (fun k j => W1 (ix2 k j)) (fun j => b1 (ix1 j)) (fun j => g1 (ix1 j)) (fun j => be1 (ix1 j))
    (fun k j => W2 (ix2 k j)) (fun j => b2 (ix1 j)) (fun j => g2 (ix1 j)) (fun j => be2 (ix1 j))
    (fun k => W3 (ix2 k 0)) (b3 (ix1 0))

end Cert.Spec

end
-- ==== Proof.KTerm.lean ====
/-
  The arrays the kernel's one region finds, as pure terms of @main's arguments: the host lines before the region
  compute the global row ids and the two gathers (the linear weights' gather reshaped to a matrix), the scale
  `1 / √(1+ε)` multiplied into the two `γ` vectors, and reshape each parameter vector to a one-row matrix and each
  one-entry vector to a one-by-one matrix. Then the region's output array as ONE function of those arrays: entry
  `(r, 0)` is row `r`'s number in the kernel's form. Definitions only.
-/
import proofs.«404514_j40759239639138_2_alg».proof.Proof.Gen.KernelIdeal
import proofs.«404514_j40759239639138_2_alg».proof.Proof.Spec

noncomputable section

namespace Cert.KernelIdeal.Val

open Cert.KernelIdeal Cert.KernelIdeal.Gen Idealize.ShloMosaic Idealize.ShloMosaic.TcCoe Idealize.SL.Sem
open Idealize.ShloMosaic.ValueIdx

variable {F : FTy → Type} [FloatOps F]

/-- `idx = x + OFFSETS[None, :]`, a negative id wrapped by the table's length, as a column of start indices. -/
def rowIds (x : (⟨S16384x39, .i32⟩ : BufTy).Contents (Elt F)) : (⟨S16384x39x1, .i32⟩ : BufTy).Contents (Elt F) :=
  have c : (⟨S39, .i32⟩ : BufTy).Contents (Elt F) := fun i => lit0 (S39.rowMajor i)
  have v0 : (⟨S1x39, .i32⟩ : BufTy).Contents (Elt F) := broadcastInDim S1x39 ![1] bcast_S39_S1x39_1 c
  have v1 : (⟨S16384x39, .i32⟩ : BufTy).Contents (Elt F) := broadcastInDim S16384x39 ![0, 1] bcast_S1x39_S16384x39_0_1 v0
  have v2 : (⟨S16384x39, .i32⟩ : BufTy).Contents (Elt F) := addi x v1
  have c_0 : (⟨S_, .i32⟩ : BufTy).Contents (Elt F) := constantI S_ 32 0#32
  have v3 : (⟨S16384x39, .i32⟩ : BufTy).Contents (Elt F) := broadcastInDim S16384x39 ![] bcast_S_S16384x39 c_0
  have v4 : (⟨S16384x39, .i1⟩ : BufTy).Contents (Elt F) := cmpi .slt v2 v3
  have c_1 : (⟨S_, .i32⟩ : BufTy).Contents (Elt F) := constantI S_ 32 1950000#32
  have v5 : (⟨S16384x39, .i32⟩ : BufTy).Contents (Elt F) := broadcastInDim S16384x39 ![] bcast_S_S16384x39 c_1
  have v6 : (⟨S16384x39, .i32⟩ : BufTy).Contents (Elt F) := addi v2 v5
  have v7 : (⟨S16384x39, .i32⟩ : BufTy).Contents (Elt F) := select v4 v6 v2
  broadcastInDim S16384x39x1 ![0, 1] bcast_S16384x39_S16384x39x1_0_1 v7

/-- `emb_table[idx]`. -/
def gatherE (x : (⟨S16384x39, .i32⟩ : BufTy).Contents (Elt F)) (emb : (⟨S1950000x16, .f32⟩ : BufTy).Contents (Elt F)) :
    (⟨S16384x39x16, .f32⟩ : BufTy).Contents (Elt F) :=
  Host.gather gather_S1950000x16_S16384x39x1_S16384x39x16_2_0_n_n_0_2_116 emb (rowIds (F := F) x)

/-- `lin_w[idx]`, still with its trailing unit axis. -/
def gatherL (x : (⟨S16384x39, .i32⟩ : BufTy).Contents (Elt F)) (lw : (⟨S1950000x1, .f32⟩ : BufTy).Contents (Elt F)) :
    (⟨S16384x39x1, .f32⟩ : BufTy).Contents (Elt F) :=
  Host.gather gather_S1950000x1_S16384x39x1_S16384x39x1_2_0_n_n_0_2_11 lw (rowIds (F := F) x)

/-- `jnp.squeeze(lin_w[idx], axis=-1)`. -/
def gatherL2 (x : (⟨S16384x39, .i32⟩ : BufTy).Contents (Elt F)) (lw : (⟨S1950000x1, .f32⟩ : BufTy).Contents (Elt F)) :
    (⟨S16384x39, .f32⟩ : BufTy).Contents (Elt F) :=
  shapeCast S16384x39 (gatherL x lw) shapeCasts_S16384x39x1_S16384x39

/-- `inv_std = 1.0 / jnp.sqrt(1.0 + BN_EPS)`. -/
def invStd : (⟨S_, .f32⟩ : BufTy).Contents (Elt F) :=
  Host.divf (constant S_ .f32 0x3F800000#32) (Host.sqrt (constant S_ .f32 0x3F800054#32))

/-- `(g * inv_std).reshape(1, 16)`. -/
def gScaled (g : (⟨S16, .f32⟩ : BufTy).Contents (Elt F)) : (⟨S1x16, .f32⟩ : BufTy).Contents (Elt F) :=
  shapeCast S1x16 (mulf g (broadcastInDim S16 ![] bcast_S_S16 (id (invStd (F := F))))) shapeCasts_S16_S1x16

/-- `v.reshape(1, 16)`. -/
def row16 (v : (⟨S16, .f32⟩ : BufTy).Contents (Elt F)) : (⟨S1x16, .f32⟩ : BufTy).Contents (Elt F) :=
  shapeCast S1x16 v shapeCasts_S16_S1x16

/-- `v.reshape(1, 1)`. -/
def one1 (v : (⟨S1, .f32⟩ : BufTy).Contents (Elt F)) : (⟨S1x1, .f32⟩ : BufTy).Contents (Elt F) :=
  shapeCast S1x1 v shapeCasts_S1_S1x1

/-- The region's output array, `[16384, 1]`, as one function of the thirteen arrays its windows stage (in the windows'
    order: embeddings, linear weights, W1, b1, γs1, β1, W2, b2, γs2, β2, W3, b3, lin_b): entry `(r, 0)` is row `r`'s
    number in the kernel's form. -/
def GK (E : S16384x39x16.Idx → EReal) (L2 : S16384x39.Idx → EReal) (W1 : S624x16.Idx → EReal)
    (b1 gs1 be1 : S1x16.Idx → EReal) (W2 : S16x16.Idx → EReal) (b2 gs2 be2 : S1x16.Idx → EReal)
    (W3 : S16x1.Idx → EReal) (b3 lb : S1x1.Idx → EReal) : S16384x1.Idx → EReal := fun i =>
  Spec.rowK (fun f d => E (ix3 (i 0) f d)) (fun f => L2 (ix2 (i 0) f)) (lb (ix2 0 0))
    (fun k j => W1 (ix2 k j)) (fun j => b1 (ix2 0 j)) (fun j => gs1 (ix2 0 j)) (fun j => be1 (ix2 0 j))
    (fun k j => W2 (ix2 k j)) (fun j => b2 (ix2 0 j)) (fun j => gs2 (ix2 0 j)) (fun j => be2 (ix2 0 j))
    (fun k => W3 (ix2 k 0)) (b3 (ix2 0 0))

end Cert.KernelIdeal.Val

end
-- ==== Proof.KPay.lean ====
/-
  The kernel body's one stored value read at a row: for loaded blocks `x0 … x12` (the windows' blocks, in the windows'
  order) the value stored at row `p` of the `[2048, 1]` output block is row `p`'s number in the kernel's form, of row
  `p` of the embedding block and of the linear-weight block and of the whole parameter blocks.
-/
import proofs.«404514_j40759239639138_2_alg».proof.Proof.Gen.KernelIdeal.Skeleton
import proofs.«404514_j40759239639138_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx

/-- A plain two-dimensional product into the zero accumulator, read at an index: the sum over the contracted coordinate. -/
theorem matmul_zero_ix2 {m k n : ℕ} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The source index over `(p)` of a `[a, b] → [a]` reduction with coordinate `d` inserted is `(p, d)`. -/
theorem lift_ab_a {a b : ℕ} (h : (⟨2, ![a, b]⟩ : Shape).Reduces [1] ⟨1, ![a]⟩) (p : Fin a) (d : Fin b) :
    h.lift (ix1 p) d = ix2 p d := by
  funext c; apply Fin.ext
  match c with
  | ⟨0, _⟩ => rfl
  | ⟨1, _⟩ => rfl

/-- The source index over `(p, d)` of an `[a, b, c] → [a, c]` reduction with coordinate `f` inserted is `(p, f, d)`. -/
theorem lift_abc_ac {a b c : ℕ} (h : (⟨3, ![a, b, c]⟩ : Shape).Reduces [1] ⟨2, ![a, c]⟩) (p : Fin a) (d : Fin c) (f : Fin b) :
    h.lift (ix2 p d) f = ix3 p f d := by
  funext e; apply Fin.ext
  match e with
  | ⟨0, _⟩ => rfl
  | ⟨1, _⟩ => rfl
  | ⟨2, _⟩ => rfl

/-- A sum over the middle axis of a rank-3 vector, read at `(p, d)`. -/
theorem red_abc_ac_apply {a b c : ℕ} (v : FVec Ideal ⟨3, ![a, b, c]⟩ .f32) (h : (⟨3, ![a, b, c]⟩ : Shape).Reduces [1] ⟨2, ![a, c]⟩)
    (hφ : FKind.Formats .f32) (hacc : (0x00000000#32 : BitVec 32) = FKind.add.neutral .f32 hφ) (p : Fin a) (d : Fin c) :
    multiReduction .add [1] ⟨2, ![a, c]⟩ v 0x00000000#32 h hφ hacc (ix2 p d) = ∑ f : Fin b, v (ix3 p f d) := by
  rw [Ideal.multiReduction_add_single]
  exact Finset.sum_congr rfl fun f _ => congrArg v (lift_abc_ac h p d f)

/-- A sum over the last axis of a rank-2 vector, read at `p`. -/
theorem red_ab_a_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ d : Fin b, v (ix2 p d) := by
  rw [Ideal.multiReduction_add_single]
  exact Finset.sum_congr rfl fun d _ => congrArg v (lift_ab_a h p d)

/-- An `[a]` vector cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The factorization-machine term the body computes, read at row `p`. -/
theorem pay3_apply (x0 : Vec Ideal S2048x39x16 .f32) (p : Fin 2048) :
    k0_pay3 (F := Ideal) x0 (ix2 p 0) = Spec.fm (fun f d => x0 (ix3 p f d)) := by
  unfold k0_pay3 k0_pay2 Spec.fm
  simp only [shapeCast_self]
  rw [mulf_apply, broadcast_apply, shapeCast_a_a1_apply]
  refine (congrArg (_ * ·) (red_ab_a_apply _ reduces_S2048x16_S2048 _ _ p)).trans ?_
  refine congrArg (Spec.halfC * ·) (Finset.sum_congr rfl fun d _ => ?_)
  rw [subf_apply, mulf_apply]
  refine (congrArg₂ (· - ·) (congrArg₂ (· * ·) (red_abc_ac_apply _ reduces_S2048x39x16_S2048x16 _ _ p d)
    (red_abc_ac_apply _ reduces_S2048x39x16_S2048x16 _ _ p d)) (red_abc_ac_apply _ reduces_S2048x39x16_S2048x16 _ _ p d)).trans ?_
  rfl

/-- A static extraction at position `(0, 0)` of a `[1, 1]` vector reads its one element. -/
theorem extractAt_00 {α : Type} (x : S1x1.Idx → α) (h : ∀ a, (![0, 0] : Fin 2 → Nat) a < S1x1.size a) :
    extractAt ![0, 0] x h = x (ix2 0 0) := by
  unfold extractAt
  exact congrArg x (funext fun a => Fin.ext (match a with | ⟨0, _⟩ => rfl | ⟨1, _⟩ => rfl))

/-- The linear term the body computes, read at row `p`. -/
theorem pay4_apply (x1 : Vec Ideal S2048x39 .f32) (x12 : Vec Ideal S1x1 .f32) (p : Fin 2048) :
    k0_pay4 (F := Ideal) x1 x12 (ix2 p 0) = Spec.lin (fun f => x1 (ix2 p f)) (x12 (ix2 0 0)) := by
  unfold k0_pay4 Spec.lin
  simp only [shapeCast_self]
  rw [addf_apply, broadcast_apply, shapeCast_a_a1_apply, extractAt_00]
  exact congrArg (· + _) (red_ab_a_apply _ reduces_S2048x39_S2048 _ _ p)

/-- The `[2048, 39, 16]` block cast to `[2048, 624]` reads, at `(p, c)`, the block at `(p, c / 16, c % 16)`. -/
theorem flat_apply (x0 : Vec Ideal S2048x39x16 .f32) (h : S2048x39x16.ShapeCasts S2048x624) (p : Fin 2048) (c : Fin 624) :
    shapeCast S2048x624 x0 h (ix2 p c) = Spec.flat (fun f d => x0 (ix3 p f d)) c := by
  unfold Spec.flat
  refine shapeCast_apply x0 h (ix2 p c) (ix3 p ⟨c.val / 16, by have := c.isLt; omega⟩ ⟨c.val % 16, Nat.mod_lt _ (by decide)⟩) ?_
  rw [Shape.rowMajor_val_three, Shape.rowMajor_val_two]
  show (p.val * 39 + c.val / 16) * 16 + c.val % 16 = p.val * 624 + c.val
  omega

/-- The first hidden layer the body computes, read at `(p, j)`. -/
theorem pay5_apply (x0 : Vec Ideal S2048x39x16 .f32) (x2 : Vec Ideal S624x16 .f32) (x3 x4 x5 : Vec Ideal S1x16 .f32)
    (p : Fin 2048) (j : Fin 16) :
    k0_pay5 (F := Ideal) x0 x2 x3 x4 x5 (ix2 p j)
      = Spec.actK (x4 (ix2 0 j))
          (Spec.pre1 (fun f d => x0 (ix3 p f d)) (fun k j => x2 (ix2 k j)) (fun j => x3 (ix2 0 j)) j) (x5 (ix2 0 j)) := by
  unfold k0_pay5 k0_pay2 Spec.actK Spec.pre1
  simp only [shapeCast_self]
  rw [maximumf_apply, addf_apply, mulf_apply, addf_apply, broadcast_apply, broadcastTo_1b_ab_apply, broadcastTo_1b_ab_apply,
    broadcastTo_1b_ab_apply]
  rw [show FloatOps.ofBits (F := Ideal) .f32 0x00000000#32 = 0 from Ideal.ofBits_zero_f32]
  refine congrArg (fun t => max (x4 (ix2 0 j) * (t + x3 (ix2 0 j)) + x5 (ix2 0 j)) 0) ?_
  refine (matmul_zero_ix2 dot_S2048x624_S624x16_S2048x16_1_0_0_1_n_n_wf none _ _ p j).trans ?_
  exact Finset.sum_congr rfl fun c _ => congrArg (· * _) (flat_apply x0 _ p c)

theorem pay_apply (x0 : Vec Ideal S2048x39x16 .f32) (x1 : Vec Ideal S2048x39 .f32) (x2 : Vec Ideal S624x16 .f32)
    (x3 x4 x5 : Vec Ideal S1x16 .f32) (x6 : Vec Ideal S16x16 .f32) (x7 x8 x9 : Vec Ideal S1x16 .f32)
    (x10 : Vec Ideal S16x1 .f32) (x11 x12 : Vec Ideal S1x1 .f32) (p : Fin 2048) :
    k0_pay1 (F := Ideal) (k0_pay3 x0) (k0_pay4 x1 x12) (k0_pay5 x0 x2 x3 x4 x5) x6 x7 x8 x9 x10 x11 (ix2 p 0)
      = Spec.rowK (fun f d => x0 (ix3 p f d)) (fun f => x1 (ix2 p f)) (x12 (ix2 0 0))
          (fun k j => x2 (ix2 k j)) (fun j => x3 (ix2 0 j)) (fun j => x4 (ix2 0 j)) (fun j => x5 (ix2 0 j))
          (fun k j => x6 (ix2 k j)) (fun j => x7 (ix2 0 j)) (fun j => x8 (ix2 0 j)) (fun j => x9 (ix2 0 j))
          (fun k => x10 (ix2 k 0)) (x11 (ix2 0 0)) := by
  unfold k0_pay1 Spec.rowK Spec.mlp
  simp only [shapeCast_self]
  rw [addf_apply, addf_apply, addf_apply, broadcast_apply, extractAt_00, pay3_apply, pay4_apply]
  refine congrArg (_ + ·) (congrArg (· + _) ?_)
  -- the output layer: a sum over the second hidden layer's 16 units
  refine (matmul_zero_ix2 dot_S2048x16_S16x1_S2048x1_1_0_0_1_n_n_wf none _ _ p 0).trans ?_
  refine Finset.sum_congr rfl fun c _ => congrArg (· * _) ?_
  -- the second hidden layer at unit `c`: scale, shift and rectifier of a sum over the first layer's 16 units
  rw [maximumf_apply, addf_apply, mulf_apply, addf_apply, broadcast_apply, broadcastTo_1b_ab_apply, broadcastTo_1b_ab_apply,
    broadcastTo_1b_ab_apply]
  rw [show FloatOps.ofBits (F := Ideal) .f32 0x00000000#32 = 0 from Ideal.ofBits_zero_f32]
  unfold Spec.actK Spec.pre2
  refine congrArg (fun t => max (x8 (ix2 0 c) * (t + x7 (ix2 0 c)) + x9 (ix2 0 c)) 0) ?_
  refine (matmul_zero_ix2 dot_S2048x16_S16x16_S2048x16_1_0_0_1_n_n_wf none _ _ p c).trans ?_
  exact Finset.sum_congr rfl fun k _ => congrArg (· * _) (pay5_apply x0 x2 x3 x4 x5 p k)

end Cert.KernelIdeal.Val

end
-- ==== Proof.KBlocks.lean ====
/-
  From blocks to the array. At grid point `t` the output window's block is rows `2048·t … 2048·t + 2047` of the
  `[16384, 1]` output array; the embedding and linear-weight windows' blocks are the same rows of their arrays, and
  every parameter window's block is its whole array. So what point `t` writes back is block `t` of the ONE function
  `GK` of the arrays the region finds (each entry one row's number), the eight blocks cover the array, and the array
  after the run is that function.
-/
import proofs.«404514_j40759239639138_2_alg».proof.Proof.Gen.KernelIdeal.Frame
import proofs.«404514_j40759239639138_2_alg».proof.Proof.KTerm
import proofs.«404514_j40759239639138_2_alg».proof.Proof.KPay
import proofs.«404514_j40759239639138_2_alg».proof.Proof.KBlockReads
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps of the three batched windows, decided over the eight grid points: the embeddings and
    the linear weights move with the output on the batch axis and sit at block 0 on their other axes; the output's
    block index on the batch axis is the point's number. -/
theorem idx_facts : ∀ t : Fin cfg0.N,
    win0_0.index t (0 : Fin 3) = win0_13.index t (0 : Fin 2) ∧ win0_0.index t (1 : Fin 3) = 0 ∧ win0_0.index t (2 : Fin 3) = 0
    ∧ win0_1.index t (0 : Fin 2) = win0_13.index t (0 : Fin 2) ∧ win0_1.index t (1 : Fin 2) = 0
    ∧ win0_13.index t (1 : Fin 2) = 0 ∧ win0_13.index t (0 : Fin 2) = t.val :=
  (by decide +kernel : ∀ t : Fin grid0.N, _)

/-- The region's output array as the one function of the arrays the region finds. -/
abbrev Karr (c : Dev nD) : S16384x1.Idx → EReal :=
  GK (V m c main_v9) (V m c main_v17) (V m c main_arg4) (V m c main_v28) (V m c main_v23) (V m c main_v29)
    (V m c main_arg8) (V m c main_v30) (V m c main_v27) (V m c main_v31) (V m c main_arg12) (V m c main_v32) (V m c main_v33)

/-- The embedding window's block at point `t`, row `p`, is row `q = 2048·t + p` of the gathered embeddings. -/
theorem blk0 (c : Dev nD) (t : Fin cfg0.N) (p : Fin 2048) (f : Fin 39) (d : Fin 16) (q : Fin 16384)
    (hq : q.val = win0_13.index t (0 : Fin 2) * 2048 + p.val) :
    iblk m c 0 t (ix3 p f d) = V m c main_v9 (ix3 q f d) := by
  obtain ⟨a0, a1, a2, -, -, -, -⟩ := idx_facts t
  show V m c main_v9 (((cfg0.win 0).blk t).view.emb (ix3 p f d)) = _
  refine congrArg (V m c main_v9) (funext fun x => Fin.ext ?_)
  match x with
  | ⟨0, _⟩ => show win0_0.index t (0 : Fin 3) * 2048 + 1 * p.val = q.val; omega
  | ⟨1, _⟩ => show win0_0.index t (1 : Fin 3) * 39 + 1 * f.val = f.val; omega
  | ⟨2, _⟩ => show win0_0.index t (2 : Fin 3) * 16 + 1 * d.val = d.val; omega

/-- The linear-weight window's block at point `t`, row `p`, is row `q = 2048·t + p` of the gathered weights. -/
theorem blk1 (c : Dev nD) (t : Fin cfg0.N) (p : Fin 2048) (f : Fin 39) (q : Fin 16384)
    (hq : q.val = win0_13.index t (0 : Fin 2) * 2048 + p.val) :
    iblk m c 1 t (ix2 p f) = V m c main_v17 (ix2 q f) := by
  obtain ⟨-, -, -, b0, b1, -, -⟩ := idx_facts t
  show V m c main_v17 (((cfg0.win 1).blk t).view.emb (ix2 p f)) = _
  refine congrArg (V m c main_v17) (funext fun x => Fin.ext ?_)
  match x with
  | ⟨0, _⟩ => show win0_1.index t (0 : Fin 2) * 2048 + 1 * p.val = q.val; omega
  | ⟨1, _⟩ => show win0_1.index t (1 : Fin 2) * 39 + 1 * f.val = f.val; omega

/-- WHAT POINT `t` WRITES BACK is block `t` of `GK` of the arrays the region finds. -/
theorem flushed13_eq (c : Dev nD) (t : Fin cfg0.N) :
    (dats m 0 c).flushed 13 t = ((cfg0.win 13).blk t).view.read (Elt Ideal) (Karr m c) := by
  show (cfg0.win 13).cut (grid0.coords t) ((dats m 0 c).after 13 t) = _
  rw [after0_13]
  unfold out0_13
  rw [View.canon_unit_zero hz2]
  simp only [View.ld_unit_zero (S := S2048x39x16) hz3, View.ld_unit_zero (S := S2048x39) hz2, View.ld_unit_zero (S := S624x16) hz2,
    View.ld_unit_zero (S := S1x16) hz2, View.ld_unit_zero (S := S16x16) hz2, View.ld_unit_zero (S := S16x1) hz2,
    View.ld_unit_zero (S := S1x1) hz2]
  funext j
  obtain ⟨p, rfl⟩ : ∃ p : Fin 2048, j = ix2 p 0 :=
    ⟨j 0, funext fun a => match a with | ⟨0, _⟩ => rfl | ⟨1, _⟩ => Fin.eq_zero _⟩
  show k0_pay1 (k0_pay3 (iblk m c 0 t)) (k0_pay4 (iblk m c 1 t) (iblk m c 12 t))
        (k0_pay5 (iblk m c 0 t) (iblk m c 2 t) (iblk m c 3 t) (iblk m c 4 t) (iblk m c 5 t)) (iblk m c 6 t)
        (iblk m c 7 t) (iblk m c 8 t) (iblk m c 9 t) (iblk m c 10 t) (iblk m c 11 t) (ix2 p 0)
      = Karr m c (((cfg0.win 13).blk t).view.emb (ix2 p 0))
  refine (pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) p).trans ?_
  have hq : ((((cfg0.win 13).blk t).view.emb (ix2 p 0)) 0).val = win0_13.index t (0 : Fin 2) * 2048 + p.val := by
    show win0_13.index t (0 : Fin 2) * 2048 + 1 * p.val = _; omega
  unfold Karr GK
  simp only [blk0 m c t p _ _ _ hq, blk1 m c t p _ _ hq, blk2 m c t, blk3 m c t, blk4 m c t, blk5 m c t, blk6 m c t,
    blk7 m c t, blk8 m c t, blk9 m c t, blk10 m c t, blk11 m c t, blk12 m c t]

/-- An index of the output array is in point `t`'s block iff each coordinate is in the block's range on its axis. -/
theorem mem_blk13 (t : Fin cfg0.N) (i : S16384x1.Idx) :
    i ∈ ((cfg0.win 13).blk t).view.set ↔ ∀ a : Fin 2, win0_13.index t a * S2048x1.size a ≤ (i a).val
      ∧ (i a).val < win0_13.index t a * S2048x1.size a + S2048x1.size a := by
  show i ∈ ((View.whole main_v34).slice (win0_13.rect t)).set ↔ _
  rw [View.set_slice_whole, Rect.mem_set_unit]
  exact Iff.rfl

/-- Row `r` of the output array is in the block of point `r / 2048`: the eight blocks cover the array. -/
theorem cover13 (i : S16384x1.Idx) :
    ∃ t : Fin cfg0.N, (cfg0.win 13).flush t = true ∧ i ∈ ((cfg0.win 13).blk t).view.set := by
  have hi0 : (i 0).val < 16384 := (i 0).isLt
  have hi1 : (i 1).val < 1 := (i 1).isLt
  have hN : cfg0.N = 8 := N_0
  obtain ⟨-, -, -, -, -, e1, e0⟩ := idx_facts ⟨(i 0).val / 2048, by rw [hN]; omega⟩
  refine ⟨⟨(i 0).val / 2048, by rw [hN]; omega⟩, flush0_13 _, ?_⟩
  rw [mem_blk13]
  intro a
  match a with
  | ⟨0, _⟩ =>
    show win0_13.index _ (0 : Fin 2) * 2048 ≤ (i 0).val ∧ (i 0).val < win0_13.index _ (0 : Fin 2) * 2048 + 2048
    rw [e0]; show (i 0).val / 2048 * 2048 ≤ (i 0).val ∧ (i 0).val < (i 0).val / 2048 * 2048 + 2048; omega
  | ⟨1, _⟩ =>
    show win0_13.index _ (1 : Fin 2) * 1 ≤ (i 1).val ∧ (i 1).val < win0_13.index _ (1 : Fin 2) * 1 + 1
    rw [e1]; omega

/-- THE OUTPUT ARRAY after the run is `GK` of the arrays the region finds. -/
theorem final13 (c : Dev nD) : (dats m 0 c).arrAt 13 cfg0.N = Karr m c :=
  (dats m 0 c).arrAt_eq_of_cover 13 (Karr m c) (fun t _ => flushed13_eq m c t) cover13

end Cert.KernelIdeal.Val

end
-- ==== Proof.KHost.lean ====
/-
  What the region finds in each array its windows stage: the host lines before the region, read back as the pure
  terms of @main's arguments (the two gathers, the pre-scaled `γ`s, the reshaped parameter vectors).
-/
import proofs.«404514_j40759239639138_2_alg».proof.Proof.Gen.KernelIdeal.Frame
import proofs.«404514_j40759239639138_2_alg».proof.Proof.KTerm
import Idealize.ShloMosaic.Lib.StableHlo.Run

noncomputable section

namespace Cert.KernelIdeal.Val

open Cert.KernelIdeal Cert.KernelIdeal.Gen Idealize.ShloMosaic Idealize.ShloMosaic.TcCoe Idealize.SL.Sem
open Idealize.ShloMosaic.StableHlo

set_option maxHeartbeats 2000000

variable {F : FTy → Type} [FloatOps F]
variable (m : (ℓ : Loc nD τ sig) → Buf (Elt F) ℓ)

theorem V_v9 (c : Dev nD) :
    V m c main_v9 = gatherE (m ((c : Thread nD τ).loc main_arg0)) (m ((c : Thread nD τ).loc main_arg1)) := by
  show StableHlo.after hostOps0 (fun b => m (c, b)) (Proc.devRef .tc main_v9) = _
  after_results_simp
  rfl

theorem V_v17 (c : Dev nD) :
    V m c main_v17 = gatherL2 (m ((c : Thread nD τ).loc main_arg0)) (m ((c : Thread nD τ).loc main_arg2)) := by
  show StableHlo.after hostOps0 (fun b => m (c, b)) (Proc.devRef .tc main_v17) = _
  after_results_simp
  rfl

theorem V_v23 (c : Dev nD) : V m c main_v23 = gScaled (m ((c : Thread nD τ).loc main_arg6)) := by
  show StableHlo.after hostOps0 (fun b => m (c, b)) (Proc.devRef .tc main_v23) = _
  after_results_simp
  rfl

theorem V_v27 (c : Dev nD) : V m c main_v27 = gScaled (m ((c : Thread nD τ).loc main_arg10)) := by
  show StableHlo.after hostOps0 (fun b => m (c, b)) (Proc.devRef .tc main_v27) = _
  after_results_simp
  rfl

theorem V_v28 (c : Dev nD) : V m c main_v28 = row16 (m ((c : Thread nD τ).loc main_arg5)) := by
  show StableHlo.after hostOps0 (fun b => m (c, b)) (Proc.devRef .tc main_v28) = _
  after_results_simp
  rfl

theorem V_v29 (c : Dev nD) : V m c main_v29 = row16 (m ((c : Thread nD τ).loc main_arg7)) := by
  show StableHlo.after hostOps0 (fun b => m (c, b)) (Proc.devRef .tc main_v29) = _
  after_results_simp
  rfl

theorem V_v30 (c : Dev nD) : V m c main_v30 = row16 (m ((c : Thread nD τ).loc main_arg9)) := by
  show StableHlo.after hostOps0 (fun b => m (c, b)) (Proc.devRef .tc main_v30) = _
  after_results_simp
  rfl

theorem V_v31 (c : Dev nD) : V m c main_v31 = row16 (m ((c : Thread nD τ).loc main_arg11)) := by
  show StableHlo.after hostOps0 (fun b => m (c, b)) (Proc.devRef .tc main_v31) = _
  after_results_simp
  rfl

theorem V_v32 (c : Dev nD) : V m c main_v32 = one1 (m ((c : Thread nD τ).loc main_arg13)) := by
  show StableHlo.after hostOps0 (fun b => m (c, b)) (Proc.devRef .tc main_v32) = _
  after_results_simp
  rfl

theorem V_v33 (c : Dev nD) : V m c main_v33 = one1 (m ((c : Thread nD τ).loc main_arg3)) := by
  show StableHlo.after hostOps0 (fun b => m (c, b)) (Proc.devRef .tc main_v33) = _
  after_results_simp
  rfl

end Cert.KernelIdeal.Val

end
-- ==== Proof.KRun.lean ====
/-
  The kernel's run read as a value. The arrays the region finds are the host prefix's terms of the arguments; read at
  an index, a reshaped parameter vector is the vector, a pre-scaled `γ` is `γ · (1 / √(1+ε))`, the squeezed gather is the
  gather. So the region's output array, entry `(r, 0)`, is the specification's entry `r` (the kernel's row in the
  reference's form, by the one law of the specification), the host reshape after the region drops the unit axis, and
  @main's result buffer ends at `Spec.G` of the two gathers and the eleven parameter arrays; the arguments end unchanged.
-/
import proofs.«404514_j40759239639138_2_alg».proof.Proof.KBlocks
import proofs.«404514_j40759239639138_2_alg».proof.Proof.KHost
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx Idealize.ShloMosaic.StableHlo

/-! ## The host prefix's terms at an index -/

theorem row16_apply (v : (⟨S16, .f32⟩ : BufTy).Contents (Elt Ideal)) (j : Fin 16) :
    row16 (F := Ideal) v (ix2 0 j) = v (ix1 j) :=
  shapeCast_a_1a_apply v shapeCasts_S16_S1x16 0 j

theorem one1_apply (v : (⟨S1, .f32⟩ : BufTy).Contents (Elt Ideal)) : one1 (F := Ideal) v (ix2 0 0) = v (ix1 0) :=
  shapeCast_a_1a_apply v shapeCasts_S1_S1x1 0 0

/-- `1 / √(1+ε)` at its one index. -/
theorem invStd_apply : invStd (F := Ideal) ix0 = Ideal.div Spec.oneC Spec.sqrtC := rfl

theorem gScaled_apply (g : (⟨S16, .f32⟩ : BufTy).Contents (Elt Ideal)) (j : Fin 16) :
    gScaled (F := Ideal) g (ix2 0 j) = g (ix1 j) * Ideal.div Spec.oneC Spec.sqrtC := by
  unfold gScaled
  refine (shapeCast_a_1a_apply _ shapeCasts_S16_S1x16 0 j).trans ?_
  show g (ix1 j) * broadcastInDim S16 ![] bcast_S_S16 (id (invStd (F := Ideal))) (ix1 j) = _
  rw [broadcastInDim_apply ![] bcast_S_S16 (id (invStd (F := Ideal))) (ix1 j) ix0 (fun a => a.elim0)]
  rfl

theorem gatherL2_apply (x : (⟨S16384x39, .i32⟩ : BufTy).Contents (Elt Ideal)) (lw : (⟨S1950000x1, .f32⟩ : BufTy).Contents (Elt Ideal))
    (q : Fin 16384) (f : Fin 39) : gatherL2 (F := Ideal) x lw (ix2 q f) = gatherL x lw (ix3 q f 0) :=
  shapeCast_apply _ shapeCasts_S16384x39x1_S16384x39 _ _ (by
    rw [Shape.rowMajor_val_three, Shape.rowMajor_val_two]
    show (q.val * 39 + f.val) * 1 + 0 = q.val * 39 + f.val
    omega)

variable (m : (ℓ : Loc nD τ sig) → Buf (Elt Ideal) ℓ) (ρ : Dev nD → PrngReg)

/-! ## The region's output array is the specification's -/

/-- Entry `(r, 0)` of the region's output array is the specification's entry `r`. -/
theorem Karr_apply (c : Dev nD) (r : Fin 16384) :
    Karr m c (ix2 r 0) = Spec.G (gatherE (m ((c : Thread nD τ).loc main_arg0)) (m ((c : Thread nD τ).loc main_arg1))) (gatherL (m ((c : Thread nD τ).loc main_arg0)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix1 r) := by
  unfold Karr GK Spec.G
  rw [V_v9, V_v17, V_main_arg4, V_v28, V_v23, V_v29, V_main_arg8, V_v30, V_v27, V_v31, V_main_arg12, V_v32, V_v33]
  simp only [row16_apply, one1_apply, gScaled_apply, gatherL2_apply]
  exact Spec.rowK_eq_rowR _ _ _ _ _ _ _ _ _ _ _ _ _

/-- The host reshape after the region: @main's result is the output array with its unit axis dropped. -/
theorem tail_v35 (c : Dev nD) :
    Pipeline.afterTail₀ cfgs (dats m) 0 (V0 m) [hostOps1] c main_v35
      = shapeCast S16384 ((dats m 0 c).arrAt 13 cfg0.N) shapeCasts_S16384x1_S16384 := by
  unfold Pipeline.afterTail₀
  show StableHlo.after hostOps1 _ (Proc.devRef .tc main_v35) = _
  after_results
  rw [Pipeline.withArrays_arr spec0 launch0.win.arr_inj c _ _ 13]
  rfl

/-- So @main's result is the specification's array. -/
theorem out_eq (c : Dev nD) :
    shapeCast S16384 ((dats m 0 c).arrAt 13 cfg0.N) shapeCasts_S16384x1_S16384
      = Spec.G (gatherE (m ((c : Thread nD τ).loc main_arg0)) (m ((c : Thread nD τ).loc main_arg1))) (gatherL (m ((c : Thread nD τ).loc main_arg0)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [final13]
  funext i
  obtain ⟨r, rfl⟩ : ∃ r : Fin 16384, i = ix1 r := ⟨i 0, eq_ix1 i⟩
  refine (shapeCast_apply (Karr m c) shapeCasts_S16384x1_S16384 (ix1 r) (ix2 r 0) (by
    rw [Shape.rowMajor_val_two, Shape.rowMajor_val_one]
    show r.val * 1 + 0 = r.val
    omega)).trans ?_
  exact Karr_apply m c r

/-! ## The run -/

/-- Every weakly fair execution of the kernel's @main terminates with its result at the specification's array of the
    two gathers and the parameter arrays, and the arguments unchanged. -/
theorem run : θ_run defs (onTc (τ := τ) (main (F := Ideal))) ⟨m, fun _ => 0, ρ⟩ fun r => ∀ c : Dev nD,
      r.2.mem ((c.tc : Thread nD τ).loc main_v35) = Spec.G (gatherE (m ((c.tc : Thread nD τ).loc main_arg0)) (m ((c.tc : Thread nD τ).loc main_arg1))) (gatherL (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v35 (Pipeline.mem_restRefs_of main_v35 (by decide) (by decide))).trans
        ((tail_v35 m c).trans (out_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 6).trans (((dats m 0 c).arrAt_in 6 rfl _).trans ((A_eq m c 6).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 10).trans (((dats m 0 c).arrAt_in 10 rfl _).trans ((A_eq m c 10).trans (V_main_arg12 m c))),
      (((h c).2 main_arg13 (Pipeline.mem_restRefs_of main_arg13 (by decide) (by decide))).trans (W_main_arg13 m (dats m) c))⟩) (run_main m ρ)

end Cert.KernelIdeal.Val

end
-- ==== Proof.RTerm.lean ====
/-
  The reference's result as a composition of named stages, each the printed host operations of one step of
  `reference()` applied to that step's operands: the global row ids, the two gathers, the linear term, the
  factorization-machine term, one hidden layer (affine map, division by `√(1+ε)`, scale, shift, rectifier), the
  output layer and the final sum. Definitions only: what @main's run leaves in its result buffer is `refOut` of the
  argument arrays (proved where the run is read back), and what `refOut` is index by index is proved stage by stage.
-/
import proofs.«404514_j40759239639138_2_alg».proof.Proof.Gen.ReferenceIdeal

noncomputable section

namespace Cert.ReferenceIdeal.Ref

open Cert.ReferenceIdeal Cert.ReferenceIdeal.Gen Idealize.ShloMosaic Idealize.ShloMosaic.TcCoe Idealize.SL.Sem

variable {F : FTy → Type} [FloatOps F]

/-- `idx = x + OFFSETS[None, :]`, a negative id wrapped by the table's length, as a column of start indices. -/
def rowIds (x : (⟨S16384x39, .i32⟩ : BufTy).Contents (Elt F)) : (⟨S16384x39x1, .i32⟩ : BufTy).Contents (Elt F) :=
  have c : (⟨S39, .i32⟩ : BufTy).Contents (Elt F) := fun i => lit0 (S39.rowMajor i)
  have v0 : (⟨S1x39, .i32⟩ : BufTy).Contents (Elt F) := broadcastInDim S1x39 ![1] bcast_S39_S1x39_1 c
  have v1 : (⟨S16384x39, .i32⟩ : BufTy).Contents (Elt F) := broadcastInDim S16384x39 ![0, 1] bcast_S1x39_S16384x39_0_1 v0
  have v2 : (⟨S16384x39, .i32⟩ : BufTy).Contents (Elt F) := addi x v1
  have c_0 : (⟨S_, .i32⟩ : BufTy).Contents (Elt F) := constantI S_ 32 0#32
  have v3 : (⟨S16384x39, .i32⟩ : BufTy).Contents (Elt F) := broadcastInDim S16384x39 ![] bcast_S_S16384x39 c_0
  have v4 : (⟨S16384x39, .i1⟩ : BufTy).Contents (Elt F) := cmpi .slt v2 v3
  have c_1 : (⟨S_, .i32⟩ : BufTy).Contents (Elt F) := constantI S_ 32 1950000#32
  have v5 : (⟨S16384x39, .i32⟩ : BufTy).Contents (Elt F) := broadcastInDim S16384x39 ![] bcast_S_S16384x39 c_1
  have v6 : (⟨S16384x39, .i32⟩ : BufTy).Contents (Elt F) := addi v2 v5
  have v7 : (⟨S16384x39, .i32⟩ : BufTy).Contents (Elt F) := select v4 v6 v2
  broadcastInDim S16384x39x1 ![0, 1] bcast_S16384x39_S16384x39x1_0_1 v7

/-- `emb_table[idx]`. -/
def gatherE (x : (⟨S16384x39, .i32⟩ : BufTy).Contents (Elt F)) (emb : (⟨S1950000x16, .f32⟩ : BufTy).Contents (Elt F)) :
    (⟨S16384x39x16, .f32⟩ : BufTy).Contents (Elt F) :=
  Host.gather gather_S1950000x16_S16384x39x1_S16384x39x16_2_0_n_n_0_2_116 emb (rowIds (F := F) x)

/-- `lin_w[idx]`. -/
def gatherL (x : (⟨S16384x39, .i32⟩ : BufTy).Contents (Elt F)) (lw : (⟨S1950000x1, .f32⟩ : BufTy).Contents (Elt F)) :
    (⟨S16384x39x1, .f32⟩ : BufTy).Contents (Elt F) :=
  Host.gather gather_S1950000x1_S16384x39x1_S16384x39x1_2_0_n_n_0_2_11 lw (rowIds (F := F) x)

/-- `jnp.sum(lin_w[idx], axis=1) + lin_b`. -/
def linT (L3 : (⟨S16384x39x1, .f32⟩ : BufTy).Contents (Elt F)) (lb : (⟨S1, .f32⟩ : BufTy).Contents (Elt F)) :
    (⟨S16384x1, .f32⟩ : BufTy).Contents (Elt F) :=
  have cst : (⟨S_, .f32⟩ : BufTy).Contents (Elt F) := constant S_ .f32 0x00000000#32
  have v17 : (⟨S16384x1, .f32⟩ : BufTy).Contents (Elt F) := Host.reduceAdd L3 cst reducesTo_S16384x39x1_S16384x1_d1 h_S_
  have v18 : (⟨S1x1, .f32⟩ : BufTy).Contents (Elt F) := broadcastInDim S1x1 ![1] bcast_S1_S1x1_1 lb
  have v19 : (⟨S16384x1, .f32⟩ : BufTy).Contents (Elt F) := broadcastInDim S16384x1 ![0, 1] bcast_S1x1_S16384x1_0_1 v18
  addf v17 v19

/-- `0.5 * jnp.sum(s * s - jnp.sum(e * e, axis=1), axis=1, keepdims=True)` with `s = jnp.sum(e, axis=1)`. -/
def fmT (E : (⟨S16384x39x16, .f32⟩ : BufTy).Contents (Elt F)) : (⟨S16384x1, .f32⟩ : BufTy).Contents (Elt F) :=
  have cst_4 : (⟨S_, .f32⟩ : BufTy).Contents (Elt F) := constant S_ .f32 0x00000000#32
  have v21 : (⟨S16384x16, .f32⟩ : BufTy).Contents (Elt F) := Host.reduceAdd E cst_4 reducesTo_S16384x39x16_S16384x16_d1 h_S_
  have v22 : (⟨S16384x16, .f32⟩ : BufTy).Contents (Elt F) := mulf v21 v21
  have v23 : (⟨S16384x39x16, .f32⟩ : BufTy).Contents (Elt F) := mulf E E
  have cst_5 : (⟨S_, .f32⟩ : BufTy).Contents (Elt F) := constant S_ .f32 0x00000000#32
  have v24 : (⟨S16384x16, .f32⟩ : BufTy).Contents (Elt F) := Host.reduceAdd v23 cst_5 reducesTo_S16384x39x16_S16384x16_d1 h_S_
  have v25 : (⟨S16384x16, .f32⟩ : BufTy).Contents (Elt F) := subf v22 v24
  have cst_6 : (⟨S_, .f32⟩ : BufTy).Contents (Elt F) := constant S_ .f32 0x00000000#32
  have v26 : (⟨S16384, .f32⟩ : BufTy).Contents (Elt F) := Host.reduceAdd v25 cst_6 reducesTo_S16384x16_S16384_d1 h_S_
  have v27 : (⟨S16384x1, .f32⟩ : BufTy).Contents (Elt F) := broadcastInDim S16384x1 ![0] bcast_S16384_S16384x1_0 v26
  have cst_7 : (⟨S_, .f32⟩ : BufTy).Contents (Elt F) := constant S_ .f32 0x3F000000#32
  have v28 : (⟨S16384x1, .f32⟩ : BufTy).Contents (Elt F) := broadcastInDim S16384x1 ![] bcast_S_S16384x1 cst_7
  mulf v28 v27

/-- A parameter vector of 16 entries as a row repeated down the batch. -/
def rowBc (v : (⟨S16, .f32⟩ : BufTy).Contents (Elt F)) : (⟨S16384x16, .f32⟩ : BufTy).Contents (Elt F) :=
  have a : (⟨S1x16, .f32⟩ : BufTy).Contents (Elt F) := broadcastInDim S1x16 ![1] bcast_S16_S1x16_1 v
  broadcastInDim S16384x16 ![0, 1] bcast_S1x16_S16384x16_0_1 a

/-- `relu(gamma * (h / sqrt(1 + eps)) + beta)` of a hidden layer's pre-activations `h`. -/
def bnRelu (h : (⟨S16384x16, .f32⟩ : BufTy).Contents (Elt F)) (g be : (⟨S16, .f32⟩ : BufTy).Contents (Elt F)) :
    (⟨S16384x16, .f32⟩ : BufTy).Contents (Elt F) :=
  have cst_8 : (⟨S_, .f32⟩ : BufTy).Contents (Elt F) := constant S_ .f32 0x3F800054#32
  have v35 : (⟨S_, .f32⟩ : BufTy).Contents (Elt F) := Host.sqrt cst_8
  have v36 : (⟨S_, .f32⟩ : BufTy).Contents (Elt F) := id v35
  have v37 : (⟨S16384x16, .f32⟩ : BufTy).Contents (Elt F) := broadcastInDim S16384x16 ![] bcast_S_S16384x16 v36
  have v38 : (⟨S16384x16, .f32⟩ : BufTy).Contents (Elt F) := Host.divf h v37
  have v41 : (⟨S16384x16, .f32⟩ : BufTy).Contents (Elt F) := mulf (rowBc g) v38
  have v44 : (⟨S16384x16, .f32⟩ : BufTy).Contents (Elt F) := addf v41 (rowBc be)
  have rcst : (⟨S_, .f32⟩ : BufTy).Contents (Elt F) := constant S_ .f32 0x00000000#32
  have r0 : (⟨S16384x16, .f32⟩ : BufTy).Contents (Elt F) := broadcastInDim S16384x16 ![] bcast_S_S16384x16 rcst
  maximumf v44 r0

/-- `e.reshape(B, 624) @ W1 + b1`. -/
def layer1 (E : (⟨S16384x39x16, .f32⟩ : BufTy).Contents (Elt F)) (W1 : (⟨S624x16, .f32⟩ : BufTy).Contents (Elt F))
    (b1 : (⟨S16, .f32⟩ : BufTy).Contents (Elt F)) : (⟨S16384x16, .f32⟩ : BufTy).Contents (Elt F) :=
  have v30 : (⟨S16384x624, .f32⟩ : BufTy).Contents (Elt F) := shapeCast S16384x624 E shapeCasts_S16384x39x16_S16384x624
  have v31 : (⟨S16384x16, .f32⟩ : BufTy).Contents (Elt F) := Host.dotGeneral dot_S16384x624_S624x16_S16384x16_1_0_0_1_n_n none v30 W1
  addf v31 (rowBc b1)

/-- `h @ W2 + b2`. -/
def layer2 (h1 : (⟨S16384x16, .f32⟩ : BufTy).Contents (Elt F)) (W2 : (⟨S16x16, .f32⟩ : BufTy).Contents (Elt F))
    (b2 : (⟨S16, .f32⟩ : BufTy).Contents (Elt F)) : (⟨S16384x16, .f32⟩ : BufTy).Contents (Elt F) :=
  have v46 : (⟨S16384x16, .f32⟩ : BufTy).Contents (Elt F) := Host.dotGeneral dot_S16384x16_S16x16_S16384x16_1_0_0_1_n_n none h1 W2
  addf v46 (rowBc b2)

/-- `h @ W3 + b3`. -/
def layer3 (h2 : (⟨S16384x16, .f32⟩ : BufTy).Contents (Elt F)) (W3 : (⟨S16x1, .f32⟩ : BufTy).Contents (Elt F))
    (b3 : (⟨S1, .f32⟩ : BufTy).Contents (Elt F)) : (⟨S16384x1, .f32⟩ : BufTy).Contents (Elt F) :=
  have v61 : (⟨S16384x1, .f32⟩ : BufTy).Contents (Elt F) := Host.dotGeneral dot_S16384x16_S16x1_S16384x1_1_0_0_1_n_n none h2 W3
  have v62 : (⟨S1x1, .f32⟩ : BufTy).Contents (Elt F) := broadcastInDim S1x1 ![1] bcast_S1_S1x1_1 b3
  have v63 : (⟨S16384x1, .f32⟩ : BufTy).Contents (Elt F) := broadcastInDim S16384x1 ![0, 1] bcast_S1x1_S16384x1_0_1 v62
  addf v61 v63

/-- Everything after the gathers: `squeeze(lin + fm + mlp_out)`. -/
def refTail (E : (⟨S16384x39x16, .f32⟩ : BufTy).Contents (Elt F)) (L3 : (⟨S16384x39x1, .f32⟩ : BufTy).Contents (Elt F))
    (lb : (⟨S1, .f32⟩ : BufTy).Contents (Elt F)) (W1 : (⟨S624x16, .f32⟩ : BufTy).Contents (Elt F))
    (b1 g1 be1 : (⟨S16, .f32⟩ : BufTy).Contents (Elt F)) (W2 : (⟨S16x16, .f32⟩ : BufTy).Contents (Elt F))
    (b2 g2 be2 : (⟨S16, .f32⟩ : BufTy).Contents (Elt F)) (W3 : (⟨S16x1, .f32⟩ : BufTy).Contents (Elt F))
    (b3 : (⟨S1, .f32⟩ : BufTy).Contents (Elt F)) : (⟨S16384, .f32⟩ : BufTy).Contents (Elt F) :=
  have h1 : (⟨S16384x16, .f32⟩ : BufTy).Contents (Elt F) := bnRelu (layer1 E W1 b1) g1 be1
  have h2 : (⟨S16384x16, .f32⟩ : BufTy).Contents (Elt F) := bnRelu (layer2 h1 W2 b2) g2 be2
  have v64 : (⟨S16384x1, .f32⟩ : BufTy).Contents (Elt F) := layer3 h2 W3 b3
  have v65 : (⟨S16384x1, .f32⟩ : BufTy).Contents (Elt F) := addf (linT L3 lb) (fmT E)
  have v66 : (⟨S16384x1, .f32⟩ : BufTy).Contents (Elt F) := addf v65 v64
  shapeCast S16384 v66 shapeCasts_S16384x1_S16384

/-- The reference's result as a function of its fourteen argument arrays. -/
def refOut (x : (⟨S16384x39, .i32⟩ : BufTy).Contents (Elt F)) (emb : (⟨S1950000x16, .f32⟩ : BufTy).Contents (Elt F))
    (lw : (⟨S1950000x1, .f32⟩ : BufTy).Contents (Elt F)) (lb : (⟨S1, .f32⟩ : BufTy).Contents (Elt F))
    (W1 : (⟨S624x16, .f32⟩ : BufTy).Contents (Elt F)) (b1 g1 be1 : (⟨S16, .f32⟩ : BufTy).Contents (Elt F))
    (W2 : (⟨S16x16, .f32⟩ : BufTy).Contents (Elt F)) (b2 g2 be2 : (⟨S16, .f32⟩ : BufTy).Contents (Elt F))
    (W3 : (⟨S16x1, .f32⟩ : BufTy).Contents (Elt F)) (b3 : (⟨S1, .f32⟩ : BufTy).Contents (Elt F)) :
    (⟨S16384, .f32⟩ : BufTy).Contents (Elt F) :=
  refTail (gatherE x emb) (gatherL x lw) lb W1 b1 g1 be1 W2 b2 g2 be2 W3 b3

end Cert.ReferenceIdeal.Ref

end
-- ==== Proof.RRun.lean ====
/-
  The reference's @main run: it is a straight line of host operations (the two calls of the rectifier unfolded at
  their call sites), so every weakly fair execution terminates with each buffer at the operations' composed value of
  the launch contents. Read at the result buffer that value is `refOut` of the fourteen argument arrays, and the
  argument buffers end as launched.
-/
import proofs.«404514_j40759239639138_2_alg».proof.Proof.RTerm
import Idealize.ShloMosaic.Lib.StableHlo.Run

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call of the rectifier unfolded at its call site into the three operations of
    its body over that call's buffers: the scalar zero, its broadcast, the maximum. -/
abbrev ops : List (HloOp τ sig (Elt F)) :=
  [ StableHlo.nullary main_c (fun i => lit0 (S39.rowMajor i)),
    StableHlo.unary main_c main_v0 (broadcastInDim S1x39 ![1] bcast_S39_S1x39_1 : (⟨S39, .i32⟩ : BufTy).Contents (Elt F) → (⟨S1x39, .i32⟩ : BufTy).Contents (Elt F)),
    StableHlo.unary main_v0 main_v1 (broadcastInDim S16384x39 ![0, 1] bcast_S1x39_S16384x39_0_1 : (⟨S1x39, .i32⟩ : BufTy).Contents (Elt F) → (⟨S16384x39, .i32⟩ : BufTy).Contents (Elt F)),
    StableHlo.binary main_arg0 main_v1 main_v2 (addi : (⟨S16384x39, .i32⟩ : BufTy).Contents (Elt F) → (⟨S16384x39, .i32⟩ : BufTy).Contents (Elt F) → (⟨S16384x39, .i32⟩ : BufTy).Contents (Elt F)),
    StableHlo.nullary main_c_0 (constantI S_ 32 0#32),
    StableHlo.unary main_c_0 main_v3 (broadcastInDim S16384x39 ![] bcast_S_S16384x39 : (⟨S_, .i32⟩ : BufTy).Contents (Elt F) → (⟨S16384x39, .i32⟩ : BufTy).Contents (Elt F)),
    StableHlo.binary main_v2 main_v3 main_v4 (cmpi .slt : (⟨S16384x39, .i32⟩ : BufTy).Contents (Elt F) → (⟨S16384x39, .i32⟩ : BufTy).Contents (Elt F) → (⟨S16384x39, .i1⟩ : BufTy).Contents (Elt F)),
    StableHlo.nullary main_c_1 (constantI S_ 32 1950000#32),
    StableHlo.unary main_c_1 main_v5 (broadcastInDim S16384x39 ![] bcast_S_S16384x39 : (⟨S_, .i32⟩ : BufTy).Contents (Elt F) → (⟨S16384x39, .i32⟩ : BufTy).Contents (Elt F)),
    StableHlo.binary main_v2 main_v5 main_v6 (addi : (⟨S16384x39, .i32⟩ : BufTy).Contents (Elt F) → (⟨S16384x39, .i32⟩ : BufTy).Contents (Elt F) → (⟨S16384x39, .i32⟩ : BufTy).Contents (Elt F)),
    StableHlo.ternary main_v4 main_v6 main_v2 main_v7 (select : (⟨S16384x39, .i1⟩ : BufTy).Contents (Elt F) → (⟨S16384x39, .i32⟩ : BufTy).Contents (Elt F) → (⟨S16384x39, .i32⟩ : BufTy).Contents (Elt F) → (⟨S16384x39, .i32⟩ : BufTy).Contents (Elt F)),
    StableHlo.unary main_v7 main_v8 (broadcastInDim S16384x39x1 ![0, 1] bcast_S16384x39_S16384x39x1_0_1 : (⟨S16384x39, .i32⟩ : BufTy).Contents (Elt F) → (⟨S16384x39x1, .i32⟩ : BufTy).Contents (Elt F)),
    StableHlo.binary main_arg1 main_v8 main_v9 ((fun x i => Host.gather gather_S1950000x16_S16384x39x1_S16384x39x16_2_0_n_n_0_2_116 x i) : (⟨S1950000x16, .f32⟩ : BufTy).Contents (Elt F) → (⟨S16384x39x1, .i32⟩ : BufTy).Contents (Elt F) → (⟨S16384x39x16, .f32⟩ : BufTy).Contents (Elt F)),
    StableHlo.nullary main_c_2 (constantI S_ 32 0#32),
    StableHlo.unary main_c_2 main_v10 (broadcastInDim S16384x39 ![] bcast_S_S16384x39 : (⟨S_, .i32⟩ : BufTy).Contents (Elt F) → (⟨S16384x39, .i32⟩ : BufTy).Contents (Elt F)),
    StableHlo.binary main_v2 main_v10 main_v11 (cmpi .slt : (⟨S16384x39, .i32⟩ : BufTy).Contents (Elt F) → (⟨S16384x39, .i32⟩ : BufTy).Contents (Elt F) → (⟨S16384x39, .i1⟩ : BufTy).Contents (Elt F)),
    StableHlo.nullary main_c_3 (constantI S_ 32 1950000#32),
    StableHlo.unary main_c_3 main_v12 (broadcastInDim S16384x39 ![] bcast_S_S16384x39 : (⟨S_, .i32⟩ : BufTy).Contents (Elt F) → (⟨S16384x39, .i32⟩ : BufTy).Contents (Elt F)),
    StableHlo.binary main_v2 main_v12 main_v13 (addi : (⟨S16384x39, .i32⟩ : BufTy).Contents (Elt F) → (⟨S16384x39, .i32⟩ : BufTy).Contents (Elt F) → (⟨S16384x39, .i32⟩ : BufTy).Contents (Elt F)),
    StableHlo.ternary main_v11 main_v13 main_v2 main_v14 (select : (⟨S16384x39, .i1⟩ : BufTy).Contents (Elt F) → (⟨S16384x39, .i32⟩ : BufTy).Contents (Elt F) → (⟨S16384x39, .i32⟩ : BufTy).Contents (Elt F) → (⟨S16384x39, .i32⟩ : BufTy).Contents (Elt F)),
    StableHlo.unary main_v14 main_v15 (broadcastInDim S16384x39x1 ![0, 1] bcast_S16384x39_S16384x39x1_0_1 : (⟨S16384x39, .i32⟩ : BufTy).Contents (Elt F) → (⟨S16384x39x1, .i32⟩ : BufTy).Contents (Elt F)),
    StableHlo.binary main_arg2 main_v15 main_v16 ((fun x i => Host.gather gather_S1950000x1_S16384x39x1_S16384x39x1_2_0_n_n_0_2_11 x i) : (⟨S1950000x1, .f32⟩ : BufTy).Contents (Elt F) → (⟨S16384x39x1, .i32⟩ : BufTy).Contents (Elt F) → (⟨S16384x39x1, .f32⟩ : BufTy).Contents (Elt F)),
    StableHlo.nullary main_cst (constant S_ .f32 0x00000000#32),
    StableHlo.binary main_v16 main_cst main_v17 ((fun x v => Host.reduceAdd x v reducesTo_S16384x39x1_S16384x1_d1 h_S_) : (⟨S16384x39x1, .f32⟩ : BufTy).Contents (Elt F) → (⟨S_, .f32⟩ : BufTy).Contents (Elt F) → (⟨S16384x1, .f32⟩ : BufTy).Contents (Elt F)),
    StableHlo.unary main_arg3 main_v18 (broadcastInDim S1x1 ![1] bcast_S1_S1x1_1 : (⟨S1, .f32⟩ : BufTy).Contents (Elt F) → (⟨S1x1, .f32⟩ : BufTy).Contents (Elt F)),
    StableHlo.unary main_v18 main_v19 (broadcastInDim S16384x1 ![0, 1] bcast_S1x1_S16384x1_0_1 : (⟨S1x1, .f32⟩ : BufTy).Contents (Elt F) → (⟨S16384x1, .f32⟩ : BufTy).Contents (Elt F)),
    StableHlo.binary main_v17 main_v19 main_v20 (addf : (⟨S16384x1, .f32⟩ : BufTy).Contents (Elt F) → (⟨S16384x1, .f32⟩ : BufTy).Contents (Elt F) → (⟨S16384x1, .f32⟩ : BufTy).Contents (Elt F)),
    StableHlo.nullary main_cst_4 (constant S_ .f32 0x00000000#32),
    StableHlo.binary main_v9 main_cst_4 main_v21 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v21 main_v21 main_v22 (mulf : (⟨S16384x16, .f32⟩ : BufTy).Contents (Elt F) → (⟨S16384x16, .f32⟩ : BufTy).Contents (Elt F) → (⟨S16384x16, .f32⟩ : BufTy).Contents (Elt F)),
    StableHlo.binary main_v9 main_v9 main_v23 (mulf : (⟨S16384x39x16, .f32⟩ : BufTy).Contents (Elt F) → (⟨S16384x39x16, .f32⟩ : BufTy).Contents (Elt F) → (⟨S16384x39x16, .f32⟩ : BufTy).Contents (Elt F)),
    StableHlo.nullary main_cst_5 (constant S_ .f32 0x00000000#32),
    StableHlo.binary main_v23 main_cst_5 main_v24 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v22 main_v24 main_v25 (subf : (⟨S16384x16, .f32⟩ : BufTy).Contents (Elt F) → (⟨S16384x16, .f32⟩ : BufTy).Contents (Elt F) → (⟨S16384x16, .f32⟩ : BufTy).Contents (Elt F)),
    StableHlo.nullary main_cst_6 (constant S_ .f32 0x00000000#32),
    StableHlo.binary main_v25 main_cst_6 main_v26 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v26 main_v27 (broadcastInDim S16384x1 ![0] bcast_S16384_S16384x1_0 : (⟨S16384, .f32⟩ : BufTy).Contents (Elt F) → (⟨S16384x1, .f32⟩ : BufTy).Contents (Elt F)),
    StableHlo.nullary main_cst_7 (constant S_ .f32 0x3F000000#32),
    StableHlo.unary main_cst_7 main_v28 (broadcastInDim S16384x1 ![] bcast_S_S16384x1 : (⟨S_, .f32⟩ : BufTy).Contents (Elt F) → (⟨S16384x1, .f32⟩ : BufTy).Contents (Elt F)),
    StableHlo.binary main_v28 main_v27 main_v29 (mulf : (⟨S16384x1, .f32⟩ : BufTy).Contents (Elt F) → (⟨S16384x1, .f32⟩ : BufTy).Contents (Elt F) → (⟨S16384x1, .f32⟩ : BufTy).Contents (Elt F)),
    StableHlo.reshape main_v9 main_v30 rfl shapeCasts_S16384x39x16_S16384x624,
    StableHlo.binary main_v30 main_arg4 main_v31 ((fun l r => Host.dotGeneral dot_S16384x624_S624x16_S16384x16_1_0_0_1_n_n none l r) : (⟨S16384x624, .f32⟩ : BufTy).Contents (Elt F) → (⟨S624x16, .f32⟩ : BufTy).Contents (Elt F) → (⟨S16384x16, .f32⟩ : BufTy).Contents (Elt F)),
    StableHlo.unary main_arg5 main_v32 (broadcastInDim S1x16 ![1] bcast_S16_S1x16_1 : (⟨S16, .f32⟩ : BufTy).Contents (Elt F) → (⟨S1x16, .f32⟩ : BufTy).Contents (Elt F)),
    StableHlo.unary main_v32 main_v33 (broadcastInDim S16384x16 ![0, 1] bcast_S1x16_S16384x16_0_1 : (⟨S1x16, .f32⟩ : BufTy).Contents (Elt F) → (⟨S16384x16, .f32⟩ : BufTy).Contents (Elt F)),
    StableHlo.binary main_v31 main_v33 main_v34 (addf : (⟨S16384x16, .f32⟩ : BufTy).Contents (Elt F) → (⟨S16384x16, .f32⟩ : BufTy).Contents (Elt F) → (⟨S16384x16, .f32⟩ : BufTy).Contents (Elt F)),
    StableHlo.nullary main_cst_8 (constant S_ .f32 0x3F800054#32),
    StableHlo.unary main_cst_8 main_v35 (Host.sqrt : (⟨S_, .f32⟩ : BufTy).Contents (Elt F) → (⟨S_, .f32⟩ : BufTy).Contents (Elt F)),
    StableHlo.unary main_v35 main_v36 (id : (⟨S_, .f32⟩ : BufTy).Contents (Elt F) → (⟨S_, .f32⟩ : BufTy).Contents (Elt F)),
    StableHlo.unary main_v36 main_v37 (broadcastInDim S16384x16 ![] bcast_S_S16384x16 : (⟨S_, .f32⟩ : BufTy).Contents (Elt F) → (⟨S16384x16, .f32⟩ : BufTy).Contents (Elt F)),
    StableHlo.binary main_v34 main_v37 main_v38 (Host.divf : (⟨S16384x16, .f32⟩ : BufTy).Contents (Elt F) → (⟨S16384x16, .f32⟩ : BufTy).Contents (Elt F) → (⟨S16384x16, .f32⟩ : BufTy).Contents (Elt F)),
    StableHlo.unary main_arg6 main_v39 (broadcastInDim S1x16 ![1] bcast_S16_S1x16_1 : (⟨S16, .f32⟩ : BufTy).Contents (Elt F) → (⟨S1x16, .f32⟩ : BufTy).Contents (Elt F)),
    StableHlo.unary main_v39 main_v40 (broadcastInDim S16384x16 ![0, 1] bcast_S1x16_S16384x16_0_1 : (⟨S1x16, .f32⟩ : BufTy).Contents (Elt F) → (⟨S16384x16, .f32⟩ : BufTy).Contents (Elt F)),
    StableHlo.binary main_v40 main_v38 main_v41 (mulf : (⟨S16384x16, .f32⟩ : BufTy).Contents (Elt F) → (⟨S16384x16, .f32⟩ : BufTy).Contents (Elt F) → (⟨S16384x16, .f32⟩ : BufTy).Contents (Elt F)),
    StableHlo.unary main_arg7 main_v42 (broadcastInDim S1x16 ![1] bcast_S16_S1x16_1 : (⟨S16, .f32⟩ : BufTy).Contents (Elt F) → (⟨S1x16, .f32⟩ : BufTy).Contents (Elt F)),
    StableHlo.unary main_v42 main_v43 (broadcastInDim S16384x16 ![0, 1] bcast_S1x16_S16384x16_0_1 : (⟨S1x16, .f32⟩ : BufTy).Contents (Elt F) → (⟨S16384x16, .f32⟩ : BufTy).Contents (Elt F)),
    StableHlo.binary main_v41 main_v43 main_v44 (addf : (⟨S16384x16, .f32⟩ : BufTy).Contents (Elt F) → (⟨S16384x16, .f32⟩ : BufTy).Contents (Elt F) → (⟨S16384x16, .f32⟩ : BufTy).Contents (Elt F)),
    StableHlo.TRef.nullary main_call0.cst (constant S_ .f32 0x00000000#32),
    StableHlo.TRef.unary main_call0.cst main_call0.v0 (broadcastInDim S16384x16 ![] bcast_S_S16384x16),
    StableHlo.TRef.binary (.of main_v44) main_call0.v0 main_call0.v1 maximumf,
    StableHlo.binary main_v45 main_arg8 main_v46 ((fun l r => Host.dotGeneral dot_S16384x16_S16x16_S16384x16_1_0_0_1_n_n none l r) : (⟨S16384x16, .f32⟩ : BufTy).Contents (Elt F) → (⟨S16x16, .f32⟩ : BufTy).Contents (Elt F) → (⟨S16384x16, .f32⟩ : BufTy).Contents (Elt F)),
    StableHlo.unary main_arg9 main_v47 (broadcastInDim S1x16 ![1] bcast_S16_S1x16_1 : (⟨S16, .f32⟩ : BufTy).Contents (Elt F) → (⟨S1x16, .f32⟩ : BufTy).Contents (Elt F)),
    StableHlo.unary main_v47 main_v48 (broadcastInDim S16384x16 ![0, 1] bcast_S1x16_S16384x16_0_1 : (⟨S1x16, .f32⟩ : BufTy).Contents (Elt F) → (⟨S16384x16, .f32⟩ : BufTy).Contents (Elt F)),
    StableHlo.binary main_v46 main_v48 main_v49 (addf : (⟨S16384x16, .f32⟩ : BufTy).Contents (Elt F) → (⟨S16384x16, .f32⟩ : BufTy).Contents (Elt F) → (⟨S16384x16, .f32⟩ : BufTy).Contents (Elt F)),
    StableHlo.nullary main_cst_9 (constant S_ .f32 0x3F800054#32),
    StableHlo.unary main_cst_9 main_v50 (Host.sqrt : (⟨S_, .f32⟩ : BufTy).Contents (Elt F) → (⟨S_, .f32⟩ : BufTy).Contents (Elt F)),
    StableHlo.unary main_v50 main_v51 (id : (⟨S_, .f32⟩ : BufTy).Contents (Elt F) → (⟨S_, .f32⟩ : BufTy).Contents (Elt F)),
    StableHlo.unary main_v51 main_v52 (broadcastInDim S16384x16 ![] bcast_S_S16384x16 : (⟨S_, .f32⟩ : BufTy).Contents (Elt F) → (⟨S16384x16, .f32⟩ : BufTy).Contents (Elt F)),
    StableHlo.binary main_v49 main_v52 main_v53 (Host.divf : (⟨S16384x16, .f32⟩ : BufTy).Contents (Elt F) → (⟨S16384x16, .f32⟩ : BufTy).Contents (Elt F) → (⟨S16384x16, .f32⟩ : BufTy).Contents (Elt F)),
    StableHlo.unary main_arg10 main_v54 (broadcastInDim S1x16 ![1] bcast_S16_S1x16_1 : (⟨S16, .f32⟩ : BufTy).Contents (Elt F) → (⟨S1x16, .f32⟩ : BufTy).Contents (Elt F)),
    StableHlo.unary main_v54 main_v55 (broadcastInDim S16384x16 ![0, 1] bcast_S1x16_S16384x16_0_1 : (⟨S1x16, .f32⟩ : BufTy).Contents (Elt F) → (⟨S16384x16, .f32⟩ : BufTy).Contents (Elt F)),
    StableHlo.binary main_v55 main_v53 main_v56 (mulf : (⟨S16384x16, .f32⟩ : BufTy).Contents (Elt F) → (⟨S16384x16, .f32⟩ : BufTy).Contents (Elt F) → (⟨S16384x16, .f32⟩ : BufTy).Contents (Elt F)),
    StableHlo.unary main_arg11 main_v57 (broadcastInDim S1x16 ![1] bcast_S16_S1x16_1 : (⟨S16, .f32⟩ : BufTy).Contents (Elt F) → (⟨S1x16, .f32⟩ : BufTy).Contents (Elt F)),
    StableHlo.unary main_v57 main_v58 (broadcastInDim S16384x16 ![0, 1] bcast_S1x16_S16384x16_0_1 : (⟨S1x16, .f32⟩ : BufTy).Contents (Elt F) → (⟨S16384x16, .f32⟩ : BufTy).Contents (Elt F)),
    StableHlo.binary main_v56 main_v58 main_v59 (addf : (⟨S16384x16, .f32⟩ : BufTy).Contents (Elt F) → (⟨S16384x16, .f32⟩ : BufTy).Contents (Elt F) → (⟨S16384x16, .f32⟩ : BufTy).Contents (Elt F)),
    StableHlo.TRef.nullary main_call1.cst (constant S_ .f32 0x00000000#32),
    StableHlo.TRef.unary main_call1.cst main_call1.v0 (broadcastInDim S16384x16 ![] bcast_S_S16384x16),
    StableHlo.TRef.binary (.of main_v59) main_call1.v0 main_call1.v1 maximumf,
    StableHlo.binary main_v60 main_arg12 main_v61 ((fun l r => Host.dotGeneral dot_S16384x16_S16x1_S16384x1_1_0_0_1_n_n none l r) : (⟨S16384x16, .f32⟩ : BufTy).Contents (Elt F) → (⟨S16x1, .f32⟩ : BufTy).Contents (Elt F) → (⟨S16384x1, .f32⟩ : BufTy).Contents (Elt F)),
    StableHlo.unary main_arg13 main_v62 (broadcastInDim S1x1 ![1] bcast_S1_S1x1_1 : (⟨S1, .f32⟩ : BufTy).Contents (Elt F) → (⟨S1x1, .f32⟩ : BufTy).Contents (Elt F)),
    StableHlo.unary main_v62 main_v63 (broadcastInDim S16384x1 ![0, 1] bcast_S1x1_S16384x1_0_1 : (⟨S1x1, .f32⟩ : BufTy).Contents (Elt F) → (⟨S16384x1, .f32⟩ : BufTy).Contents (Elt F)),
    StableHlo.binary main_v61 main_v63 main_v64 (addf : (⟨S16384x1, .f32⟩ : BufTy).Contents (Elt F) → (⟨S16384x1, .f32⟩ : BufTy).Contents (Elt F) → (⟨S16384x1, .f32⟩ : BufTy).Contents (Elt F)),
    StableHlo.binary main_v20 main_v29 main_v65 (addf : (⟨S16384x1, .f32⟩ : BufTy).Contents (Elt F) → (⟨S16384x1, .f32⟩ : BufTy).Contents (Elt F) → (⟨S16384x1, .f32⟩ : BufTy).Contents (Elt F)),
    StableHlo.binary main_v65 main_v64 main_v66 (addf : (⟨S16384x1, .f32⟩ : BufTy).Contents (Elt F) → (⟨S16384x1, .f32⟩ : BufTy).Contents (Elt F) → (⟨S16384x1, .f32⟩ : BufTy).Contents (Elt F)),
    StableHlo.reshape main_v66 main_v67 rfl shapeCasts_S16384x1_S16384 ]

-- one bind per operation is re-associated: the rewrite under the chain recurses once per statement
set_option maxRecDepth 8192 in
set_option maxHeartbeats 4000000 in
/-- @main is that straight line: its two windows and the rectifier's body unfolded, both sides are one chain of
    host steps once sequencing is re-associated. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    unary_bufs_sub .., unary_bufs_sub .., binary_bufs_sub .., nullary_bufs_sub .., binary_bufs_sub .., binary_bufs_sub ..,
    binary_bufs_sub .., nullary_bufs_sub .., binary_bufs_sub .., binary_bufs_sub .., nullary_bufs_sub .., binary_bufs_sub ..,
    unary_bufs_sub .., nullary_bufs_sub .., unary_bufs_sub .., binary_bufs_sub .., reshape_bufs_sub .., binary_bufs_sub ..,
    unary_bufs_sub .., unary_bufs_sub .., binary_bufs_sub .., nullary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., binary_bufs_sub .., binary_bufs_sub .., reshape_bufs_sub ..⟩

-- the gather and the host sum stay folded while the two sides are compared: the equation never looks inside them
attribute [local irreducible] Host.gather Host.reduceAdd in
set_option maxRecDepth 8192 in
set_option maxHeartbeats 4000000 in
/-- The fold read at the result buffer is `refOut` of the argument buffers' contents: each operation's result at its
    own buffer is its function's value and at any other buffer what was there, so the fold at `main_v67` is the
    operations' composition; `refOut`'s stages are that same composition stage by stage (the two computations of the
    row ids are one term; a typed reference's transport at a literal reference is the identity; a reshape is the
    row-major re-indexing it is stated as), so the two sides agree by unfolding the stages. -/
theorem out_eq (V : Valuation τ sig (Elt F)) :
    after ops V (main_v67 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  unfold refOut refTail gatherE gatherL rowIds linT fmT bnRelu layer1 layer2 layer3 rowBc
  rfl

/-! No operation of the line writes an argument buffer: the fold read there is what was there. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

set_option maxRecDepth 8192 in
set_option maxHeartbeats 4000000 in
theorem arg11_eq (V : Valuation τ sig (Elt F)) :
    after ops V (main_arg11 : DevRef τ sig) = V (main_arg11 : DevRef τ sig) := by
  after_results_simp

set_option maxRecDepth 8192 in
set_option maxHeartbeats 4000000 in
theorem arg12_eq (V : Valuation τ sig (Elt F)) :
    after ops V (main_arg12 : DevRef τ sig) = V (main_arg12 : DevRef τ sig) := by
  after_results_simp

set_option maxRecDepth 8192 in
set_option maxHeartbeats 4000000 in
theorem arg13_eq (V : Valuation τ sig (Elt F)) :
    after ops V (main_arg13 : DevRef τ sig) = V (main_arg13 : DevRef τ sig) := by
  after_results_simp

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v67).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_seq scopedRefs_eq scopedSems_eq defs main (fun _ => ops) main_eq (fun _ => ops_sub) m ρ)

end Cert.ReferenceIdeal.Ref

end
-- ==== Proof.RRead.lean ====
/-
  The reference's term read index by index: everything after the two gathers, at the ideal values, is the
  specification's array `Spec.G` of the gathered arrays and the eleven parameter arrays. Each stage is read at an
  index (a host sum over one axis is the initial zero plus the sum over that axis; a matrix product is the sum over the
  contracted axis; a reshape keeps the row-major position; a broadcast reads the operand at the kept coordinates) and the
  stages compose to one row's number in the reference's form.
-/
import proofs.«404514_j40759239639138_2_alg».proof.Proof.RTerm
import proofs.«404514_j40759239639138_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Ref

open Cert.ReferenceIdeal Cert.ReferenceIdeal.Gen Idealize.ShloMosaic Idealize.ShloMosaic.TcCoe Idealize.SL.Sem
open Idealize.ShloMosaic.ValueIdx

/-- A parameter row broadcast down the batch reads, at `(r, j)`, the vector's entry `j`. -/
theorem rowBc_apply (v : (⟨S16, .f32⟩ : BufTy).Contents (Elt Ideal)) (r : Fin 16384) (j : Fin 16) :
    rowBc (F := Ideal) v (ix2 r j) = v (ix1 j) := by
  unfold rowBc
  refine (broadcastInDim_apply _ _ _ (ix2 r j) (ix2 (0 : Fin 1) j) (fun a => match a with | ⟨0, _⟩ => rfl | ⟨1, _⟩ => rfl)).trans ?_
  exact broadcastInDim_apply _ _ _ (ix2 (0 : Fin 1) j) (ix1 j) (fun a => match a with | ⟨0, _⟩ => rfl)

/-- The host's sum over one axis from the zero initial value is the sum over that axis's coordinates. -/
theorem hostSum_apply {s t : Shape} {a : Fin s.rank} (h' : s.ReducesTo [a] t) (h : s.Reduces [a] t)
    (x : FVec Ideal s .f32) (hu : 0 < S_.numel) (j : t.Idx) :
    Host.reduceAdd (F := Ideal) x (constant S_ .f32 0x00000000#32) h' hu j = ∑ k : Fin (s.size a), x (h.lift j k) := by
  unfold Host.reduceAdd
  show Ideal.hostReduceAdd h' x (Ideal.ofBits .f32 0x00000000#32) j = _
  rw [Ideal.hostReduceAdd_single h' h, Ideal.ofBits_zero_f32, zero_add]

/-- A one-entry vector broadcast to a column reads its entry everywhere. -/
theorem colBc_apply (v : (⟨S1, .f32⟩ : BufTy).Contents (Elt Ideal)) (r : Fin 16384) :
    broadcastInDim S16384x1 ![0, 1] bcast_S1x1_S16384x1_0_1 (broadcastInDim S1x1 ![1] bcast_S1_S1x1_1 v) (ix2 r 0) = v (ix1 0) := by
  refine (broadcastInDim_apply _ _ _ (ix2 r 0) (ix2 (0 : Fin 1) (0 : Fin 1)) (fun a => match a with | ⟨0, _⟩ => rfl | ⟨1, _⟩ => rfl)).trans ?_
  exact broadcastInDim_apply _ _ _ (ix2 (0 : Fin 1) (0 : Fin 1)) (ix1 0) (fun a => match a with | ⟨0, _⟩ => rfl)

/-- The linear term at row `r`: the sum of the row's 39 gathered weights plus the bias. -/
theorem linT_apply (L3 : (⟨S16384x39x1, .f32⟩ : BufTy).Contents (Elt Ideal)) (lb : (⟨S1, .f32⟩ : BufTy).Contents (Elt Ideal))
    (r : Fin 16384) :
    linT (F := Ideal) L3 lb (ix2 r 0) = Spec.lin (fun f => L3 (ix3 r f 0)) (lb (ix1 0)) := by
  have hR : S16384x39x1.Reduces [1] S16384x1 := by decide
  unfold linT Spec.lin
  simp only [addf_apply]
  refine congrArg₂ (· + ·) ?_ (colBc_apply lb r)
  refine (hostSum_apply _ hR L3 _ (ix2 r 0)).trans ?_
  refine Finset.sum_congr rfl fun f _ => congrArg L3 ?_
  funext a
  match a with
  | ⟨0, _⟩ => rfl
  | ⟨1, _⟩ => rfl
  | ⟨2, _⟩ => rfl

/-- The host's sum of a `[16384, 39, 16]` array over its middle axis, at `(r, d)`: the sum over the 39 fields. -/
theorem sumFields_apply (x : (⟨S16384x39x16, .f32⟩ : BufTy).Contents (Elt Ideal)) (r : Fin 16384) (d : Fin 16) :
    Host.reduceAdd (F := Ideal) x (constant S_ .f32 0x00000000#32) reducesTo_S16384x39x16_S16384x16_d1 h_S_ (ix2 r d)
      = ∑ f : Fin 39, x (ix3 r f d) := by
  have hR : S16384x39x16.Reduces [1] S16384x16 := by decide
  refine (hostSum_apply _ hR x _ (ix2 r d)).trans ?_
  refine Finset.sum_congr rfl fun f _ => congrArg x ?_
  funext a
  match a with
  | ⟨0, _⟩ => rfl
  | ⟨1, _⟩ => rfl
  | ⟨2, _⟩ => rfl

/-- The host's sum of a `[16384, 16]` array over its second axis, at `r`: the sum over the 16 columns. -/
theorem sumCols_apply (x : (⟨S16384x16, .f32⟩ : BufTy).Contents (Elt Ideal)) (r : Fin 16384) :
    Host.reduceAdd (F := Ideal) x (constant S_ .f32 0x00000000#32) reducesTo_S16384x16_S16384_d1 h_S_ (ix1 r)
      = ∑ d : Fin 16, x (ix2 r d) := by
  have hR : S16384x16.Reduces [1] S16384 := by decide
  refine (hostSum_apply _ hR x _ (ix1 r)).trans ?_
  refine Finset.sum_congr rfl fun d _ => congrArg x ?_
  funext a
  match a with
  | ⟨0, _⟩ => rfl
  | ⟨1, _⟩ => rfl

/-- The factorization-machine term at row `r`. -/
theorem fmT_apply (E : (⟨S16384x39x16, .f32⟩ : BufTy).Contents (Elt Ideal)) (r : Fin 16384) :
    fmT (F := Ideal) E (ix2 r 0) = Spec.fm (fun f d => E (ix3 r f d)) := by
  unfold fmT Spec.fm
  simp only [mulf_apply]
  refine congrArg₂ (· * ·) ?_ ?_
  · exact broadcastInDim_apply _ _ _ (ix2 r 0) ix0 (fun a => a.elim0)
  · refine (broadcastInDim_apply _ _ _ (ix2 r 0) (ix1 r) (fun a => match a with | ⟨0, _⟩ => rfl)).trans ?_
    refine (sumCols_apply _ r).trans ?_
    refine Finset.sum_congr rfl fun d _ => ?_
    simp only [subf_apply, mulf_apply]
    rw [sumFields_apply E r d]
    exact congrArg₂ (· - ·) rfl (sumFields_apply _ r d)

/-- Scale, shift and rectifier of a hidden layer at `(r, j)`: the reference's form of the activation. -/
theorem bnRelu_apply (h : (⟨S16384x16, .f32⟩ : BufTy).Contents (Elt Ideal)) (g be : (⟨S16, .f32⟩ : BufTy).Contents (Elt Ideal))
    (r : Fin 16384) (j : Fin 16) :
    bnRelu (F := Ideal) h g be (ix2 r j) = Spec.actR (g (ix1 j)) (h (ix2 r j)) (be (ix1 j)) := by
  unfold bnRelu Spec.actR
  simp only [maximumf_apply, addf_apply, mulf_apply, rowBc_apply]
  refine congrArg₂ max (congrArg₂ (· + ·) (congrArg₂ (· * ·) rfl ?_) rfl) ?_
  · show Ideal.div (h (ix2 r j)) _ = Ideal.div (h (ix2 r j)) Spec.sqrtC
    refine congrArg (Ideal.div (h (ix2 r j))) ?_
    exact broadcastInDim_apply _ _ _ (ix2 r j) ix0 (fun a => a.elim0)
  · refine (broadcastInDim_apply _ _ _ (ix2 r j) ix0 (fun a => a.elim0)).trans ?_
    exact Ideal.ofBits_zero_f32

/-! ### The first layer's contraction, `[16384, 624] × [624, 16]`: its index maps coordinate by coordinate -/

theorem d1_lhs_0 (j : S16384x16.Idx) (k : dot_S16384x624_S624x16_S16384x16_1_0_0_1_n_n.contr.Idx) :
    (dot_S16384x624_S624x16_S16384x16_1_0_0_1_n_n.lhsIdx j k 0 : ℕ) = j 0 := by
  simp [DotDims.lhsIdx, dot_S16384x624_S624x16_S16384x16_1_0_0_1_n_n]; rfl
theorem d1_lhs_1 (j : S16384x16.Idx) (k : dot_S16384x624_S624x16_S16384x16_1_0_0_1_n_n.contr.Idx) :
    (dot_S16384x624_S624x16_S16384x16_1_0_0_1_n_n.lhsIdx j k 1 : ℕ) = k ⟨0, by decide⟩ := by
  simp [DotDims.lhsIdx, dot_S16384x624_S624x16_S16384x16_1_0_0_1_n_n]; rfl
theorem d1_rhs_0 (j : S16384x16.Idx) (k : dot_S16384x624_S624x16_S16384x16_1_0_0_1_n_n.contr.Idx) :
    (dot_S16384x624_S624x16_S16384x16_1_0_0_1_n_n.rhsIdx j k 0 : ℕ) = k ⟨0, by decide⟩ := by
  simp [DotDims.rhsIdx, dot_S16384x624_S624x16_S16384x16_1_0_0_1_n_n]; rfl
theorem d1_rhs_1 (j : S16384x16.Idx) (k : dot_S16384x624_S624x16_S16384x16_1_0_0_1_n_n.contr.Idx) :
    (dot_S16384x624_S624x16_S16384x16_1_0_0_1_n_n.rhsIdx j k 1 : ℕ) = j 1 := by
  simp [DotDims.rhsIdx, dot_S16384x624_S624x16_S16384x16_1_0_0_1_n_n]; rfl

/-- The first layer's matrix product at `(r, j)`: the sum over the 624 contracted positions. -/
theorem dot1_apply (A : FVec Ideal S16384x624 .f32) (B : FVec Ideal S624x16 .f32) (r : Fin 16384) (j : Fin 16) :
    Host.dotGeneral (F := Ideal) dot_S16384x624_S624x16_S16384x16_1_0_0_1_n_n none A B (ix2 r j)
      = ∑ k : Fin 624, A (ix2 r k) * B (ix2 k j) := by
  refine (Ideal.dotGeneral_apply dot_S16384x624_S624x16_S16384x16_1_0_0_1_n_n none .single A B (ix2 r j)).trans ?_
  refine (Equiv.sum_comp (contrEquiv1 dot_S16384x624_S624x16_S16384x16_1_0_0_1_n_n 624 rfl rfl).symm _).symm.trans ?_
  refine Finset.sum_congr rfl fun c _ => ?_
  have hl : dot_S16384x624_S624x16_S16384x16_1_0_0_1_n_n.lhsIdx (ix2 r j)
      ((contrEquiv1 dot_S16384x624_S624x16_S16384x16_1_0_0_1_n_n 624 rfl rfl).symm c) = ix2 r c := by
    funext a; refine Fin.ext ?_
    match a with
    | ⟨0, _⟩ => exact d1_lhs_0 _ _
    | ⟨1, _⟩ => exact (d1_lhs_1 _ _).trans (contrEquiv1_symm_val _ 624 rfl rfl c)
  have hr : dot_S16384x624_S624x16_S16384x16_1_0_0_1_n_n.rhsIdx (ix2 r j)
      ((contrEquiv1 dot_S16384x624_S624x16_S16384x16_1_0_0_1_n_n 624 rfl rfl).symm c) = ix2 c j := by
    funext a; refine Fin.ext ?_
    match a with
    | ⟨0, _⟩ => exact (d1_rhs_0 _ _).trans (contrEquiv1_symm_val _ 624 rfl rfl c)
    | ⟨1, _⟩ => exact d1_rhs_1 _ _
  rw [hl, hr]

/-! ### The second layer's contraction, `[16384, 16] × [16, 16]` -/

theorem d2_lhs_0 (j : S16384x16.Idx) (k : dot_S16384x16_S16x16_S16384x16_1_0_0_1_n_n.contr.Idx) :
    (dot_S16384x16_S16x16_S16384x16_1_0_0_1_n_n.lhsIdx j k 0 : ℕ) = j 0 := by
  simp [DotDims.lhsIdx, dot_S16384x16_S16x16_S16384x16_1_0_0_1_n_n]; rfl
theorem d2_lhs_1 (j : S16384x16.Idx) (k : dot_S16384x16_S16x16_S16384x16_1_0_0_1_n_n.contr.Idx) :
    (dot_S16384x16_S16x16_S16384x16_1_0_0_1_n_n.lhsIdx j k 1 : ℕ) = k ⟨0, by decide⟩ := by
  simp [DotDims.lhsIdx, dot_S16384x16_S16x16_S16384x16_1_0_0_1_n_n]; rfl
theorem d2_rhs_0 (j : S16384x16.Idx) (k : dot_S16384x16_S16x16_S16384x16_1_0_0_1_n_n.contr.Idx) :
    (dot_S16384x16_S16x16_S16384x16_1_0_0_1_n_n.rhsIdx j k 0 : ℕ) = k ⟨0, by decide⟩ := by
  simp [DotDims.rhsIdx, dot_S16384x16_S16x16_S16384x16_1_0_0_1_n_n]; rfl
theorem d2_rhs_1 (j : S16384x16.Idx) (k : dot_S16384x16_S16x16_S16384x16_1_0_0_1_n_n.contr.Idx) :
    (dot_S16384x16_S16x16_S16384x16_1_0_0_1_n_n.rhsIdx j k 1 : ℕ) = j 1 := by
  simp [DotDims.rhsIdx, dot_S16384x16_S16x16_S16384x16_1_0_0_1_n_n]; rfl

/-- The second layer's matrix product at `(r, j)`: the sum over the 16 contracted positions. -/
theorem dot2_apply (A : FVec Ideal S16384x16 .f32) (B : FVec Ideal S16x16 .f32) (r : Fin 16384) (j : Fin 16) :
    Host.dotGeneral (F := Ideal) dot_S16384x16_S16x16_S16384x16_1_0_0_1_n_n none A B (ix2 r j)
      = ∑ k : Fin 16, A (ix2 r k) * B (ix2 k j) := by
  refine (Ideal.dotGeneral_apply dot_S16384x16_S16x16_S16384x16_1_0_0_1_n_n none .single A B (ix2 r j)).trans ?_
  refine (Equiv.sum_comp (contrEquiv1 dot_S16384x16_S16x16_S16384x16_1_0_0_1_n_n 16 rfl rfl).symm _).symm.trans ?_
  refine Finset.sum_congr rfl fun c _ => ?_
  have hl : dot_S16384x16_S16x16_S16384x16_1_0_0_1_n_n.lhsIdx (ix2 r j)
      ((contrEquiv1 dot_S16384x16_S16x16_S16384x16_1_0_0_1_n_n 16 rfl rfl).symm c) = ix2 r c := by
    funext a; refine Fin.ext ?_
    match a with
    | ⟨0, _⟩ => exact d2_lhs_0 _ _
    | ⟨1, _⟩ => exact (d2_lhs_1 _ _).trans (contrEquiv1_symm_val _ 16 rfl rfl c)
  have hr : dot_S16384x16_S16x16_S16384x16_1_0_0_1_n_n.rhsIdx (ix2 r j)
      ((contrEquiv1 dot_S16384x16_S16x16_S16384x16_1_0_0_1_n_n 16 rfl rfl).symm c) = ix2 c j := by
    funext a; refine Fin.ext ?_
    match a with
    | ⟨0, _⟩ => exact (d2_rhs_0 _ _).trans (contrEquiv1_symm_val _ 16 rfl rfl c)
    | ⟨1, _⟩ => exact d2_rhs_1 _ _
  rw [hl, hr]

/-! ### The output layer's contraction, `[16384, 16] × [16, 1]` -/

theorem d3_lhs_0 (j : S16384x1.Idx) (k : dot_S16384x16_S16x1_S16384x1_1_0_0_1_n_n.contr.Idx) :
    (dot_S16384x16_S16x1_S16384x1_1_0_0_1_n_n.lhsIdx j k 0 : ℕ) = j 0 := by
  simp [DotDims.lhsIdx, dot_S16384x16_S16x1_S16384x1_1_0_0_1_n_n]; rfl
theorem d3_lhs_1 (j : S16384x1.Idx) (k : dot_S16384x16_S16x1_S16384x1_1_0_0_1_n_n.contr.Idx) :
    (dot_S16384x16_S16x1_S16384x1_1_0_0_1_n_n.lhsIdx j k 1 : ℕ) = k ⟨0, by decide⟩ := by
  simp [DotDims.lhsIdx, dot_S16384x16_S16x1_S16384x1_1_0_0_1_n_n]; rfl
theorem d3_rhs_0 (j : S16384x1.Idx) (k : dot_S16384x16_S16x1_S16384x1_1_0_0_1_n_n.contr.Idx) :
    (dot_S16384x16_S16x1_S16384x1_1_0_0_1_n_n.rhsIdx j k 0 : ℕ) = k ⟨0, by decide⟩ := by
  simp [DotDims.rhsIdx, dot_S16384x16_S16x1_S16384x1_1_0_0_1_n_n]; rfl
theorem d3_rhs_1 (j : S16384x1.Idx) (k : dot_S16384x16_S16x1_S16384x1_1_0_0_1_n_n.contr.Idx) :
    (dot_S16384x16_S16x1_S16384x1_1_0_0_1_n_n.rhsIdx j k 1 : ℕ) = j 1 := by
  have h1 := idx2_lt1 j
  simp [DotDims.rhsIdx, dot_S16384x16_S16x1_S16384x1_1_0_0_1_n_n]
  omega

/-- The output layer's matrix product at `(r, 0)`: the sum over the 16 contracted positions. -/
theorem dot3_apply (A : FVec Ideal S16384x16 .f32) (B : FVec Ideal S16x1 .f32) (r : Fin 16384) (j : Fin 1) :
    Host.dotGeneral (F := Ideal) dot_S16384x16_S16x1_S16384x1_1_0_0_1_n_n none A B (ix2 r j)
      = ∑ k : Fin 16, A (ix2 r k) * B (ix2 k j) := by
  refine (Ideal.dotGeneral_apply dot_S16384x16_S16x1_S16384x1_1_0_0_1_n_n none .single A B (ix2 r j)).trans ?_
  refine (Equiv.sum_comp (contrEquiv1 dot_S16384x16_S16x1_S16384x1_1_0_0_1_n_n 16 rfl rfl).symm _).symm.trans ?_
  refine Finset.sum_congr rfl fun c _ => ?_
  have hl : dot_S16384x16_S16x1_S16384x1_1_0_0_1_n_n.lhsIdx (ix2 r j)
      ((contrEquiv1 dot_S16384x16_S16x1_S16384x1_1_0_0_1_n_n 16 rfl rfl).symm c) = ix2 r c := by
    funext a; refine Fin.ext ?_
    match a with
    | ⟨0, _⟩ => exact d3_lhs_0 _ _
    | ⟨1, _⟩ => exact (d3_lhs_1 _ _).trans (contrEquiv1_symm_val _ 16 rfl rfl c)
  have hr : dot_S16384x16_S16x1_S16384x1_1_0_0_1_n_n.rhsIdx (ix2 r j)
      ((contrEquiv1 dot_S16384x16_S16x1_S16384x1_1_0_0_1_n_n 16 rfl rfl).symm c) = ix2 c j := by
    funext a; refine Fin.ext ?_
    match a with
    | ⟨0, _⟩ => exact (d3_rhs_0 _ _).trans (contrEquiv1_symm_val _ 16 rfl rfl c)
    | ⟨1, _⟩ => exact d3_rhs_1 _ _
  rw [hl, hr]

/-- The first hidden layer's pre-activation at `(r, j)`: the flattened row times column `j` of the weights, plus
    the bias. The reshape keeps the row-major position: `(r·39 + f)·16 + d = r·624 + k` at `f = k / 16`, `d = k % 16`. -/
theorem layer1_apply (E : (⟨S16384x39x16, .f32⟩ : BufTy).Contents (Elt Ideal)) (W1 : (⟨S624x16, .f32⟩ : BufTy).Contents (Elt Ideal))
    (b1 : (⟨S16, .f32⟩ : BufTy).Contents (Elt Ideal)) (r : Fin 16384) (j : Fin 16) :
    layer1 (F := Ideal) E W1 b1 (ix2 r j)
      = Spec.pre1 (fun f d => E (ix3 r f d)) (fun k j => W1 (ix2 k j)) (fun j => b1 (ix1 j)) j := by
  unfold layer1 Spec.pre1
  simp only [addf_apply, rowBc_apply]
  refine congrArg₂ (· + ·) ?_ rfl
  refine (dot1_apply _ W1 r j).trans ?_
  refine Finset.sum_congr rfl fun k _ => congrArg₂ (· * ·) ?_ rfl
  unfold Spec.flat
  exact shapeCast_apply E _ (ix2 r k)
    (ix3 r ⟨k.val / 16, by have := k.isLt; omega⟩ ⟨k.val % 16, Nat.mod_lt _ (by decide)⟩)
    (by rw [Shape.rowMajor_val_three, Shape.rowMajor_val_two]
        show (r.val * 39 + k.val / 16) * 16 + k.val % 16 = r.val * 624 + k.val
        omega)

/-- The second hidden layer's pre-activation at `(r, j)`. -/
theorem layer2_apply (h1 : (⟨S16384x16, .f32⟩ : BufTy).Contents (Elt Ideal)) (W2 : (⟨S16x16, .f32⟩ : BufTy).Contents (Elt Ideal))
    (b2 : (⟨S16, .f32⟩ : BufTy).Contents (Elt Ideal)) (r : Fin 16384) (j : Fin 16) :
    layer2 (F := Ideal) h1 W2 b2 (ix2 r j)
      = Spec.pre2 (fun i => h1 (ix2 r i)) (fun k j => W2 (ix2 k j)) (fun j => b2 (ix1 j)) j := by
  unfold layer2 Spec.pre2
  simp only [addf_apply, rowBc_apply]
  exact congrArg₂ (· + ·) (dot2_apply h1 W2 r j) rfl

/-- The output layer at row `r`. -/
theorem layer3_apply (h2 : (⟨S16384x16, .f32⟩ : BufTy).Contents (Elt Ideal)) (W3 : (⟨S16x1, .f32⟩ : BufTy).Contents (Elt Ideal))
    (b3 : (⟨S1, .f32⟩ : BufTy).Contents (Elt Ideal)) (r : Fin 16384) :
    layer3 (F := Ideal) h2 W3 b3 (ix2 r 0)
      = Spec.mlp (fun k => h2 (ix2 r k)) (fun k => W3 (ix2 k 0)) (b3 (ix1 0)) := by
  unfold layer3 Spec.mlp
  simp only [addf_apply]
  exact congrArg₂ (· + ·) (dot3_apply h2 W3 r 0) (colBc_apply b3 r)

/-! ### The whole tail: the stages composed -/

theorem refTail_eq (E : (⟨S16384x39x16, .f32⟩ : BufTy).Contents (Elt Ideal)) (L3 : (⟨S16384x39x1, .f32⟩ : BufTy).Contents (Elt Ideal))
    (lb : (⟨S1, .f32⟩ : BufTy).Contents (Elt Ideal)) (W1 : (⟨S624x16, .f32⟩ : BufTy).Contents (Elt Ideal))
    (b1 g1 be1 : (⟨S16, .f32⟩ : BufTy).Contents (Elt Ideal)) (W2 : (⟨S16x16, .f32⟩ : BufTy).Contents (Elt Ideal))
    (b2 g2 be2 : (⟨S16, .f32⟩ : BufTy).Contents (Elt Ideal)) (W3 : (⟨S16x1, .f32⟩ : BufTy).Contents (Elt Ideal))
    (b3 : (⟨S1, .f32⟩ : BufTy).Contents (Elt Ideal)) :
    refTail (F := Ideal) E L3 lb W1 b1 g1 be1 W2 b2 g2 be2 W3 b3 = Spec.G E L3 lb W1 b1 g1 be1 W2 b2 g2 be2 W3 b3 := by
  funext i
  obtain ⟨r, rfl⟩ : ∃ r : Fin 16384, i = ix1 r := ⟨i 0, eq_ix1 i⟩
  unfold refTail
  -- the final reshape `[16384, 1] → [16384]` reads `(r, 0)`: the same row-major position
  refine (shapeCast_apply _ _ (ix1 r) (ix2 r (0 : Fin 1))
    (by rw [Shape.rowMajor_val_two, Shape.rowMajor_val_one]
        show r.val * 1 + 0 = r.val
        omega)).trans ?_
  simp only [addf_apply, linT_apply, fmT_apply, layer3_apply, bnRelu_apply, layer2_apply, layer1_apply]
  rfl

end Cert.ReferenceIdeal.Ref

end
-- ==== Proof.lean ====
/-
  A factorization-machine and perceptron scorer over gathered embeddings: the kernel against its jnp reference, over the
  extended reals.

  Both programs form the same global row ids on the host and gather the same 39 embedding vectors and 39 linear
  weights per batch row. The reference then computes, row by row, the linear term `Σ_f l_f + b`, the
  factorization-machine term `½ Σ_d ((Σ_f e_fd)² − Σ_f e_fd²)` and a three-layer perceptron on the 624 flattened
  embedding entries whose two hidden layers divide by `√(1+ε)`, scale by `γ`, shift by `β` and rectify. The kernel
  computes the same three terms for 2048 rows per grid point, but is handed `γ · (1/√(1+ε))`, formed on the host, in
  place of `γ`. Since `√(1+ε)` is a nonzero real, `(γ · (1/s)) · h = γ · (h / s)` on every extended real (a quotient by
  `s` is a product with `1/s`, and the product is commutative and associative), so row by row the two results are one
  number; no finiteness of the inputs is needed. Sums and matrix products are the same sums on both sides.

  The kernel's two frames are the generated ones. The reference's frame is its run, a straight line of host
  operations, read back (`Ref.run`). The kernel's value is read off its generated frame run: what each grid point
  writes back is a block of one function of the arrays the region finds, the blocks cover the output array, and the
  host reshape after the region drops its unit axis (`Val.run`). The reference's value is its composed term read
  index by index (`Ref.refTail_eq`). Both end at the specification's array `Spec.G` of the two gathers and the eleven
  parameter arrays.
-/
import proofs.«404514_j40759239639138_2_alg».proof.Defs
import proofs.«404514_j40759239639138_2_alg».proof.Proof.Gen.Kernel
import proofs.«404514_j40759239639138_2_alg».proof.Proof.Gen.Kernel.Skeleton
import proofs.«404514_j40759239639138_2_alg».proof.Proof.Gen.Kernel.Launch
import proofs.«404514_j40759239639138_2_alg».proof.Proof.Gen.Kernel.Points
import proofs.«404514_j40759239639138_2_alg».proof.Proof.Gen.Kernel.Frame
import proofs.«404514_j40759239639138_2_alg».proof.Proof.Gen.KernelIdeal
import proofs.«404514_j40759239639138_2_alg».proof.Proof.Gen.KernelIdeal.Skeleton
import proofs.«404514_j40759239639138_2_alg».proof.Proof.Gen.KernelIdeal.Launch
import proofs.«404514_j40759239639138_2_alg».proof.Proof.Gen.KernelIdeal.Points
import proofs.«404514_j40759239639138_2_alg».proof.Proof.Gen.KernelIdeal.Frame
import proofs.«404514_j40759239639138_2_alg».proof.Proof.Gen.ReferenceIdeal
import proofs.«404514_j40759239639138_2_alg».proof.Proof.Gen.Pre_finite_inputs
import proofs.«404514_j40759239639138_2_alg».proof.Proof.KRun
import proofs.«404514_j40759239639138_2_alg».proof.Proof.RRun
import proofs.«404514_j40759239639138_2_alg».proof.Proof.RRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Ref.run (F := Ideal) m ρ)

/-- The ideal pass rewrote nothing: the idealization is the program's own text read over the extended reals. -/
theorem preserves : Cert.preserves_Kernel_KernelIdeal := trivial

/-- Both programs end at the specification's array of the two gathers and the eleven parameter arrays: the kernel
    by its value run, the reference by its run and its term read index by index; the gathers of the two programs
    are one term of the arguments, on which the memories agree. -/
theorem algebraic : Cert.algebraic_KernelIdeal_ReferenceIdeal := by
  intro m ρ m' ρ' _ hagree
  refine ⟨fun c => Cert.Spec.G (Cert.KernelIdeal.Val.gatherE (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.KernelIdeal.Val.gatherL (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Val.run m ρ, ?_⟩
  refine (θ_run Cert.ReferenceIdeal.defs _ _).mono (fun _ h c => ⟨(h c).1.trans ?_, (h c).2⟩)
    (Cert.ReferenceIdeal.Ref.run (F := Ideal) m' ρ')
  obtain ⟨h0, h1, h2, h3, h4, h5, h6, h7, h8, h9, h10, h11, h12, h13⟩ := hagree c
  rw [h0, h1, h2, h3, h4, h5, h6, h7, h8, h9, h10, h11, h12, h13]
  unfold Cert.ReferenceIdeal.Ref.refOut
  rw [Cert.ReferenceIdeal.Ref.refTail_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
